-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x64x250 : Shape := ⟨4, ![32, 8, 64, 250]⟩
abbrev S2x4096 : Shape := ⟨2, ![2, 4096]⟩
abbrev S4096 : Shape := ⟨1, ![4096]⟩
abbrev S128x2000 : Shape := ⟨2, ![128, 2000]⟩
abbrev S128 : Shape := ⟨1, ![128]⟩
abbrev S_ : Shape := ⟨0, ![]⟩

class Facts : Prop where
  bcast_S_S32x8x64x250 : S_.BroadcastsInDim S32x8x64x250 (![] : Fin 0 → Fin S32x8x64x250.rank)
  reducesTo_S32x8x64x250_S_d0_1_2_3 : S32x8x64x250.ReducesTo [0, 1, 2, 3] S_
  h_S_ : 0 < S_.numel
  bcast_S_S4096 : S_.BroadcastsInDim S4096 (![] : Fin 0 → Fin S4096.rank)
  reducesTo_S4096_S_d0 : S4096.ReducesTo [0] S_
  bcast_S_S128x2000 : S_.BroadcastsInDim S128x2000 (![] : Fin 0 → Fin S128x2000.rank)
  reducesTo_S128x2000_S_d0_1 : S128x2000.ReducesTo [0, 1] S_
  bcast_S_S128 : S_.BroadcastsInDim S128 (![] : Fin 0 → Fin S128.rank)
  reducesTo_S128_S_d0 : S128.ReducesTo [0] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_arg1 : IVec S2x4096 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S2x4096 32 := broadcastInDim S2x4096 ![] bcast_S_S2x4096 main_c_6
  let main_v20 : IVec S2x4096 1 := cmpi .sge main_arg1 main_v19
  let main_c_7 : IVec S_ 1 := constantI S_ 1 1#1
  let main_v21 : IVec S_ 1 := (fun x v => Host.reduce IntOp.andi x v reducesTo_S2x4096_S_d0_1 h_S_) main_v20 main_c_7
  let main_v22 : IVec S_ 1 := andi main_v18 main_v21
  let main_c_8 : IVec S_ 32 := constantI S_ 32 64#32
  let main_v23 : IVec S2x4096 32 := broadcastInDim S2x4096 ![] bcast_S_S2x4096 main_c_8
  let main_v24 : IVec S2x4096 1 := cmpi .slt main_arg1 main_v23
  let main_c_9 : IVec S_ 1 := constantI S_ 1 1#1
  let main_v25 : IVec S_ 1 := (fun x v => Host.reduce IntOp.andi x v reducesTo_S2x4096_S_d0_1 h_S_) main_v24 main_c_9
  let main_v26 : IVec S_ 1 := andi main_v22 main_v25
  main_v26

def fn {F : FTy → Type} [FloatOps F] (main_arg0 : FVec F S32x8x64x250 .f32) (main_arg1 : IVec S2x4096 32) (main_arg2 : FVec F S4096 .f32) (main_arg3 : FVec F S128x2000 .f32) (main_arg4 : FVec F S128 .f32) : IVec S_ 1 :=
  let main_v0 : FVec F S32x8x64x250 .f32 := Host.absf main_arg0
  let main_cst : FVec F S_ .f32 := constant S_ .f32 0x7F800000#32
  let main_v1 : FVec F S32x8x64x250 .f32 := broadcastInDim S32x8x64x250 ![] bcast_S_S32x8x64x250 main_cst
  let main_v2 : IVec S32x8x64x250 1 := cmpf .olt main_v0 main_v1
  let main_c : IVec S_ 1 := constantI S_ 1 1#1
  let main_v3 : IVec S_ 1 := (fun x v => Host.reduce IntOp.andi x v reducesTo_S32x8x64x250_S_d0_1_2_3 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S128x2000 .f32 := Host.absf main_arg3
  let main_cst_2 : FVec F S_ .f32 := constant S_ .f32 0x7F800000#32
  let main_v10 : FVec F S128x2000 .f32 := broadcastInDim S128x2000 ![] bcast_S_S128x2000 main_cst_2
  let main_v11 : IVec S128x2000 1 := cmpf .olt main_v9 main_v10
  let main_c_3 : IVec S_ 1 := constantI S_ 1 1#1
  let main_v12 : IVec S_ 1 := (fun x v => Host.reduce IntOp.andi x v reducesTo_S128x2000_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S32x8x64x250 : Shape := ⟨4, ![32, 8, 64, 250]⟩
abbrev S2x4096 : Shape := ⟨2, ![2, 4096]⟩
abbrev S4096 : Shape := ⟨1, ![4096]⟩
abbrev S128x2000 : Shape := ⟨2, ![128, 2000]⟩
abbrev S128 : Shape := ⟨1, ![128]⟩
abbrev S32x64x2000 : Shape := ⟨3, ![32, 64, 2000]⟩
abbrev S_ : Shape := ⟨0, ![]⟩
abbrev S1x4096 : Shape := ⟨2, ![1, 4096]⟩
abbrev S64 : Shape := ⟨1, ![64]⟩
abbrev S4160 : Shape := ⟨1, ![4160]⟩
abbrev S4160x1 : Shape := ⟨2, ![4160, 1]⟩
abbrev S64x64 : Shape := ⟨2, ![64, 64]⟩
abbrev S4160x2 : Shape := ⟨2, ![4160, 2]⟩
abbrev S2000x128 : Shape := ⟨2, ![2000, 128]⟩
abbrev S32x64x128 : Shape := ⟨3, ![32, 64, 128]⟩
abbrev S4x64x2000 : Shape := ⟨3, ![4, 64, 2000]⟩
abbrev S4x64x128 : Shape := ⟨3, ![4, 64, 128]⟩
abbrev S1x128 : Shape := ⟨2, ![1, 128]⟩
abbrev S64x128 : Shape := ⟨2, ![64, 128]⟩
abbrev S256x2000 : Shape := ⟨2, ![256, 2000]⟩
abbrev S256x128 : Shape := ⟨2, ![256, 128]⟩
abbrev S1x64x128 : Shape := ⟨3, ![1, 64, 128]⟩

abbrev nBuf : Space → Nat
  | .hbm => 87
  | .vmem => 7
  | .smem => 0
  | _ => 0

abbrev bufTy : (tb : Table) → Fin (tcTables nBuf tb) → BufTy
  | .hbm, ⟨0, _⟩ => ⟨S32x8x64x250, .f32⟩
  | .hbm, ⟨1, _⟩ => ⟨S2x4096, .i32⟩
  | .hbm, ⟨2, _⟩ => ⟨S4096, .f32⟩
  | .hbm, ⟨3, _⟩ => ⟨S128x2000, .f32⟩
  | .hbm, ⟨4, _⟩ => ⟨S128, .f32⟩
  | .hbm, ⟨5, _⟩ => ⟨S32x64x2000, .f32⟩
  | .hbm, ⟨6, _⟩ => ⟨S_, .f32⟩
  | .hbm, ⟨7, _⟩ => ⟨S4096, .f32⟩
  | .hbm, ⟨8, _⟩ => ⟨S4096, .i1⟩
  | .hbm, ⟨9, _⟩ => ⟨S_, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .i32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S64, .i32⟩
  | .hbm, ⟨18, _⟩ => ⟨S4160, .i32⟩
  | .hbm, ⟨19, _⟩ => ⟨S4160, .i32⟩
  | .hbm, ⟨20, _⟩ => ⟨S_, .f32⟩
  | .hbm, ⟨21, _⟩ => ⟨S64, .f32⟩
  | .hbm, ⟨22, _⟩ => ⟨S4160, .f32⟩
  | .hbm, ⟨23, _⟩ => ⟨S_, .f32⟩
  | .hbm, ⟨24, _⟩ => ⟨S64, .f32⟩
  | .hbm, ⟨25, _⟩ => ⟨S_, .i32⟩
  | .hbm, ⟨26, _⟩ => ⟨S4160, .i32⟩
  | .hbm, ⟨27, _⟩ => ⟨S4160, .i1⟩
  | .hbm, ⟨28, _⟩ => ⟨S_, .i32⟩
  | .hbm, ⟨29, _⟩ => ⟨S4160, .i32⟩
  | .hbm, ⟨30, _⟩ => ⟨S4160, .i32⟩
  | .hbm, ⟨31, _⟩ => ⟨S4160, .i32⟩
  | .hbm, ⟨32, _⟩ => ⟨S4160x1, .i32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .i1⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .i32⟩
  | .hbm, ⟨44, _⟩ => ⟨S4160, .i32⟩
  | .hbm, ⟨45, _⟩ => ⟨S4160, .i1⟩
  | .hbm, ⟨46, _⟩ => ⟨S_, .i32⟩
  | .hbm, ⟨47, _⟩ => ⟨S4160, .i32⟩
  | .hbm, ⟨48, _⟩ => ⟨S4160, .i32⟩
  | .hbm, ⟨49, _⟩ => ⟨S4160, .i32⟩
  | .hbm, ⟨50, _⟩ => ⟨S4160x1, .i32⟩
  | .hbm, ⟨51, _⟩ => ⟨S4160, .f32⟩
  | .hbm, ⟨52, _⟩ => ⟨S4160, .f32⟩
  | .hbm, ⟨53, _⟩ => ⟨S_, .i32⟩
  | .hbm, ⟨54, _⟩ => ⟨S4160, .i32⟩
  | .hbm, ⟨55, _⟩ => ⟨S4160, .i1⟩
  | .hbm, ⟨56, _⟩ => ⟨S_, .i32⟩
  | .hbm, ⟨57, _⟩ => ⟨S4160, .i32⟩
  | .hbm, ⟨58, _⟩ => ⟨S4160, .i32⟩
  | .hbm, ⟨59, _⟩ => ⟨S4160, .i32⟩
  | .hbm, ⟨60, _⟩ => ⟨S4160x1, .i32⟩
  | .hbm, ⟨61, _⟩ => ⟨S4160, .f32⟩
  | .hbm, ⟨62, _⟩ => ⟨S4160, .f32⟩
  | .hbm, ⟨63, _⟩ => ⟨S_, .f32⟩
  | .hbm, ⟨64, _⟩ => ⟨S64x64, .f32⟩
  | .hbm, ⟨65, _⟩ => ⟨S_, .i32⟩
  | .hbm, ⟨66, _⟩ => ⟨S4160, .i32⟩
  | .hbm, ⟨67, _⟩ => ⟨S4160, .i1⟩
  | .hbm, ⟨68, _⟩ => ⟨S_, .i32⟩
  | .hbm, ⟨69, _⟩ => ⟨S4160, .i32⟩
  | .hbm, ⟨70, _⟩ => ⟨S4160, .i32⟩
  | .hbm, ⟨71, _⟩ => ⟨S4160, .i32⟩
  | .hbm, ⟨72, _⟩ => ⟨S_, .i32⟩
  | .hbm, ⟨73, _⟩ => ⟨S4160, .i32⟩
  | .hbm, ⟨74, _⟩ => ⟨S4160, .i1⟩
  | .hbm, ⟨75, _⟩ => ⟨S_, .i32⟩
  | .hbm, ⟨76, _⟩ => ⟨S4160, .i32⟩
  | .hbm, ⟨77, _⟩ => ⟨S4160, .i32⟩
  | .hbm, ⟨78, _⟩ => ⟨S4160, .i32⟩
  | .hbm, ⟨79, _⟩ => ⟨S4160x1, .i32⟩
  | .hbm, ⟨80, _⟩ => ⟨S4160x1, .i32⟩
  | .hbm, ⟨81, _⟩ => ⟨S4160x2, .i32⟩
  | .hbm, ⟨82, _⟩ => ⟨S64x64, .f32⟩
  | .hbm, ⟨83, _⟩ => ⟨S64x64, .f32⟩
  | .hbm, ⟨84, _⟩ => ⟨S2000x128, .f32⟩
  | .hbm, ⟨85, _⟩ => ⟨S2000x128, .bf16⟩
  | .hbm, ⟨86, _⟩ => ⟨S32x64x128, .f32⟩
  | .local _ .vmem, ⟨0, _⟩ => ⟨S4x64x2000, .f32⟩
  | .local _ .vmem, ⟨1, _⟩ => ⟨S4x64x2000, .f32⟩
  | .local _ .vmem, ⟨2, _⟩ => ⟨S64x64, .f32⟩
  | .local _ .vmem, ⟨3, _⟩ => ⟨S2000x128, .bf16⟩
  | .local _ .vmem, ⟨4, _⟩ => ⟨S128, .f32⟩
  | .local _ .vmem, ⟨5, _⟩ => ⟨S4x64x128, .f32⟩
  | .local _ .vmem, ⟨6, _⟩ => ⟨S4x64x128, .f32⟩
  | _, _ => ⟨S32x8x64x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_c_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x8x64x250_S32x64x2000 : S32x8x64x250.ShapeCasts S32x64x2000
  bcast_S_S4096 : S_.BroadcastsInDim S4096 (![] : Fin 0 → Fin S4096.rank)
  slices_S2x4096_S1x4096_0_0 : S2x4096.Slices ![0, 0] S1x4096
  shapeCasts_S1x4096_S4096 : S1x4096.ShapeCasts S4096
  slices_S2x4096_S1x4096_1_0 : S2x4096.Slices ![1, 0] S1x4096
  concatenates_S4096_S64_S4160_d0 : Shape.Concatenates [S4096, S64] S4160 0
  bcast_S_S64 : S_.BroadcastsInDim S64 (![] : Fin 0 → Fin S64.rank)
  bcast_S_S4160 : S_.BroadcastsInDim S4160 (![] : Fin 0 → Fin S4160.rank)
  bcast_S4160_S4160x1_0 : S4160.BroadcastsInDim S4160x1 (![0] : Fin 1 → Fin S4160x1.rank)
  bcast_S_S64x64 : S_.BroadcastsInDim S64x64 (![] : Fin 0 → Fin S64x64.rank)
  concatenates_S4160x1_S4160x1_S4160x2_d1 : Shape.Concatenates [S4160x1, S4160x1] S4160x2 1
  transposes_S128x2000_S2000x128_1_0 : S128x2000.Transposes [1, 0] S2000x128
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S64x128 : S1x128.Broadcasts S64x128
  inb_S4x64x2000_S4x64x2000_0_0_0 : ∀ a, (![0, 0, 0] : Fin 3 → Nat) a + S4x64x2000.size a ≤ S4x64x2000.size a
  h_S4x64x2000 : 0 < S4x64x2000.numel
  shapeCasts_S4x64x2000_S4x64x2000 : S4x64x2000.ShapeCasts S4x64x2000
  shapeCasts_S4x64x2000_S256x2000 : S4x64x2000.ShapeCasts S256x2000
  shapeCasts_S256x128_S4x64x128 : S256x128.ShapeCasts S4x64x128
  slices_S4x64x128_o0_0_0_S1x64x128 : S4x64x128.Slices ![0, 0, 0] S1x64x128
  shapeCasts_S1x64x128_S64x128 : S1x64x128.ShapeCasts S64x128
  inb_S4x64x128_S1x64x128_0_0_0 : ∀ a, (![0, 0, 0] : Fin 3 → Nat) a + S1x64x128.size a ≤ S4x64x128.size a
  h_S1x64x128 : 0 < S1x64x128.numel
  shapeCasts_S64x128_S1x64x128 : S64x128.ShapeCasts S1x64x128
  slices_S4x64x128_o1_0_0_S1x64x128 : S4x64x128.Slices ![1, 0, 0] S1x64x128
  inb_S4x64x128_S1x64x128_1_0_0 : ∀ a, (![1, 0, 0] : Fin 3 → Nat) a + S1x64x128.size a ≤ S4x64x128.size a
  slices_S4x64x128_o2_0_0_S1x64x128 : S4x64x128.Slices ![2, 0, 0] S1x64x128
  inb_S4x64x128_S1x64x128_2_0_0 : ∀ a, (![2, 0, 0] : Fin 3 → Nat) a + S1x64x128.size a ≤ S4x64x128.size a
  slices_S4x64x128_o3_0_0_S1x64x128 : S4x64x128.Slices ![3, 0, 0] S1x64x128
  inb_S4x64x128_S1x64x128_3_0_0 : ∀ a, (![3, 0, 0] : Fin 3 → Nat) a + S1x64x128.size a ≤ S4x64x128.size a
  scatter_S64_S4160x1_S4160_n_0_0_1_wf : ScatterDims.WF S64 S4160x1 S4160 [] [0] [0] 1
  gather_S64_S4160x1_S4160_n_0_n_n_0_1_1_wf : GatherDims.WF S64 S4160x1 S4160 [] [0] [] [0] [] 1 ![1]
  scatter_S64x64_S4160x2_S4160_n_01_01_1_wf : ScatterDims.WF S64x64 S4160x2 S4160 [] [0, 1] [0, 1] 1
  dot_S64x64_S64x64_S64x64_1_0_0_1_n_n_wf : DotDims.WF S64x64 S64x64 S64x64 [1] [0] [0] [1] [] []
  dot_S256x2000_S2000x128_S256x128_1_0_0_1_n_n_wf : DotDims.WF S256x2000 S2000x128 S256x128 [1] [0] [0] [1] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x2000.size a ≤ S32x64x2000.size a
  hwx0_0 : ∀ i : grid0.Coords, EltTy.bits .f32 = 32 ∨ (Rect.block (s := S32x64x2000) S4x64x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S2000x128.size a
  hwx0_2 : ∀ i : grid0.Coords, EltTy.bits .bf16 = 32 ∨ (Rect.block (s := S2000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x64x128.size a ≤ S32x64x128.size a
  hwx0_4 : ∀ i : grid0.Coords, EltTy.bits .f32 = 32 ∨ (Rect.block (s := S32x64x128) S4x64x128.size (cc0_transform_4 i) (hinb0_4 i)).WholeWords (EltTy.packing .f32)

variable [Facts₀]

def scatter_S64_S4160x1_S4160_n_0_0_1 : ScatterDims S64 S4160x1 S4160 where
  updateWindowDims := []
  insertedWindowDims := [0]
  scatterDimsToOperandDims := [0]
  indexVectorDim := 1
  wf := scatter_S64_S4160x1_S4160_n_0_0_1_wf
def gather_S64_S4160x1_S4160_n_0_n_n_0_1_1 : GatherDims S64 S4160x1 S4160 where
  offsetDims := []
  collapsedSliceDims := [0]
  operandBatchingDims := []
  startIndicesBatchingDims := []
  startIndexMap := [0]
  indexVectorDim := 1
  sliceSizes := ![1]
  wf := gather_S64_S4160x1_S4160_n_0_n_n_0_1_1_wf
def scatter_S64x64_S4160x2_S4160_n_01_01_1 : ScatterDims S64x64 S4160x2 S4160 where
  updateWindowDims := []
  insertedWindowDims := [0, 1]
  scatterDimsToOperandDims := [0, 1]
  indexVectorDim := 1
  wf := scatter_S64x64_S4160x2_S4160_n_01_01_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S256x2000_S2000x128_S256x128_1_0_0_1_n_n : DotDims S256x2000 S2000x128 S256x128 where
  lhsContracting := [1]
  rhsContracting := [0]
  lhsNonContracting := [0]
  rhsNonContracting := [1]
  lhsBatch := []
  rhsBatch := []
  wf := dot_S256x2000_S2000x128_S256x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_v0) S4x64x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S4x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8x64x250 : Shape := ⟨4, ![32, 8, 64, 250]⟩
abbrev S2x4096 : Shape := ⟨2, ![2, 4096]⟩
abbrev S4096 : Shape := ⟨1, ![4096]⟩
abbrev S128x2000 : Shape := ⟨2, ![128, 2000]⟩
abbrev S128 : Shape := ⟨1, ![128]⟩
abbrev S32x64x2000 : Shape := ⟨3, ![32, 64, 2000]⟩
abbrev S_ : Shape := ⟨0, ![]⟩
abbrev S1x4096 : Shape := ⟨2, ![1, 4096]⟩
abbrev S64 : Shape := ⟨1, ![64]⟩
abbrev S4160 : Shape := ⟨1, ![4160]⟩
abbrev S4160x1 : Shape := ⟨2, ![4160, 1]⟩
abbrev S32x4160x2000 : Shape := ⟨3, ![32, 4160, 2000]⟩
abbrev S1x4160x1 : Shape := ⟨3, ![1, 4160, 1]⟩
abbrev S32x64x128 : Shape := ⟨3, ![32, 64, 128]⟩
abbrev S1x1x128 : Shape := ⟨3, ![1, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S32x8x64x250, .f32⟩
  | .hbm, ⟨1, _⟩ => ⟨S2x4096, .i32⟩
  | .hbm, ⟨2, _⟩ => ⟨S4096, .f32⟩
  | .hbm, ⟨3, _⟩ => ⟨S128x2000, .f32⟩
  | .hbm, ⟨4, _⟩ => ⟨S128, .f32⟩
  | .hbm, ⟨5, _⟩ => ⟨S32x64x2000, .f32⟩
  | .hbm, ⟨6, _⟩ => ⟨S_, .f32⟩
  | .hbm, ⟨7, _⟩ => ⟨S4096, .f32⟩
  | .hbm, ⟨8, _⟩ => ⟨S4096, .i1⟩
  | .hbm, ⟨9, _⟩ => ⟨S_, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .i32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S64, .i32⟩
  | .hbm, ⟨18, _⟩ => ⟨S4160, .i32⟩
  | .hbm, ⟨19, _⟩ => ⟨S4160, .i32⟩
  | .hbm, ⟨20, _⟩ => ⟨S_, .f32⟩
  | .hbm, ⟨21, _⟩ => ⟨S64, .f32⟩
  | .hbm, ⟨22, _⟩ => ⟨S4160, .f32⟩
  | .hbm, ⟨23, _⟩ => ⟨S_, .f32⟩
  | .hbm, ⟨24, _⟩ => ⟨S64, .f32⟩
  | .hbm, ⟨25, _⟩ => ⟨S_, .i32⟩
  | .hbm, ⟨26, _⟩ => ⟨S4160, .i32⟩
  | .hbm, ⟨27, _⟩ => ⟨S4160, .i1⟩
  | .hbm, ⟨28, _⟩ => ⟨S_, .i32⟩
  | .hbm, ⟨29, _⟩ => ⟨S4160, .i32⟩
  | .hbm, ⟨30, _⟩ => ⟨S4160, .i32⟩
  | .hbm, ⟨31, _⟩ => ⟨S4160, .i32⟩
  | .hbm, ⟨32, _⟩ => ⟨S4160x1, .i32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .i1⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .i32⟩
  | .hbm, ⟨44, _⟩ => ⟨S4160, .i32⟩
  | .hbm, ⟨45, _⟩ => ⟨S4160, .i1⟩
  | .hbm, ⟨46, _⟩ => ⟨S_, .i32⟩
  | .hbm, ⟨47, _⟩ => ⟨S4160, .i32⟩
  | .hbm, ⟨48, _⟩ => ⟨S4160, .i32⟩
  | .hbm, ⟨49, _⟩ => ⟨S4160, .i32⟩
  | .hbm, ⟨50, _⟩ => ⟨S4160x1, .i32⟩
  | .hbm, ⟨51, _⟩ => ⟨S4160, .f32⟩
  | .hbm, ⟨52, _⟩ => ⟨S4160, .f32⟩
  | .hbm, ⟨53, _⟩ => ⟨S_, .i32⟩
  | .hbm, ⟨54, _⟩ => ⟨S4160, .i32⟩
  | .hbm, ⟨55, _⟩ => ⟨S4160, .i1⟩
  | .hbm, ⟨56, _⟩ => ⟨S_, .i32⟩
  | .hbm, ⟨57, _⟩ => ⟨S4160, .i32⟩
  | .hbm, ⟨58, _⟩ => ⟨S4160, .i32⟩
  | .hbm, ⟨59, _⟩ => ⟨S4160, .i32⟩
  | .hbm, ⟨60, _⟩ => ⟨S4160x1, .i32⟩
  | .hbm, ⟨61, _⟩ => ⟨S4160, .f32⟩
  | .hbm, ⟨62, _⟩ => ⟨S4160, .f32⟩
  | .hbm, ⟨63, _⟩ => ⟨S_, .i32⟩
  | .hbm, ⟨64, _⟩ => ⟨S4160, .i32⟩
  | .hbm, ⟨65, _⟩ => ⟨S4160, .i1⟩
  | .hbm, ⟨66, _⟩ => ⟨S_, .i32⟩
  | .hbm, ⟨67, _⟩ => ⟨S4160, .i32⟩
  | .hbm, ⟨68, _⟩ => ⟨S4160, .i32⟩
  | .hbm, ⟨69, _⟩ => ⟨S4160, .i32⟩
  | .hbm, ⟨70, _⟩ => ⟨S4160x1, .i32⟩
  | .hbm, ⟨71, _⟩ => ⟨S32x4160x2000, .f32⟩
  | .hbm, ⟨72, _⟩ => ⟨S1x4160x1, .f32⟩
  | .hbm, ⟨73, _⟩ => ⟨S32x4160x2000, .f32⟩
  | .hbm, ⟨74, _⟩ => ⟨S32x4160x2000, .f32⟩
  | .hbm, ⟨75, _⟩ => ⟨S_, .f32⟩
  | .hbm, ⟨76, _⟩ => ⟨S32x64x2000, .f32⟩
  | .hbm, ⟨77, _⟩ => ⟨S_, .i32⟩
  | .hbm, ⟨78, _⟩ => ⟨S4160, .i32⟩
  | .hbm, ⟨79, _⟩ => ⟨S4160, .i1⟩
  | .hbm, ⟨80, _⟩ => ⟨S_, .i32⟩
  | .hbm, ⟨81, _⟩ => ⟨S4160, .i32⟩
  | .hbm, ⟨82, _⟩ => ⟨S4160, .i32⟩
  | .hbm, ⟨83, _⟩ => ⟨S4160, .i32⟩
  | .hbm, ⟨84, _⟩ => ⟨S4160x1, .i32⟩
  | .hbm, ⟨85, _⟩ => ⟨S32x64x2000, .f32⟩
  | .hbm, ⟨86, _⟩ => ⟨S_, .i32⟩
  | .hbm, ⟨87, _⟩ => ⟨S4160, .i32⟩
  | .hbm, ⟨88, _⟩ => ⟨S4160, .i1⟩
  | .hbm, ⟨89, _⟩ => ⟨S_, .i32⟩
  | .hbm, ⟨90, _⟩ => ⟨S4160, .i32⟩
  | .hbm, ⟨91, _⟩ => ⟨S4160, .i32⟩
  | .hbm, ⟨92, _⟩ => ⟨S4160, .i32⟩
  | .hbm, ⟨93, _⟩ => ⟨S4160x1, .i32⟩
  | .hbm, ⟨94, _⟩ => ⟨S32x4160x2000, .f32⟩
  | .hbm, ⟨95, _⟩ => ⟨S1x4160x1, .f32⟩
  | .hbm, ⟨96, _⟩ => ⟨S32x4160x2000, .f32⟩
  | .hbm, ⟨97, _⟩ => ⟨S32x4160x2000, .f32⟩
  | .hbm, ⟨98, _⟩ => ⟨S_, .f32⟩
  | .hbm, ⟨99, _⟩ => ⟨S32x64x2000, .f32⟩
  | .hbm, ⟨100, _⟩ => ⟨S_, .i32⟩
  | .hbm, ⟨101, _⟩ => ⟨S4160, .i32⟩
  | .hbm, ⟨102, _⟩ => ⟨S4160, .i1⟩
  | .hbm, ⟨103, _⟩ => ⟨S_, .i32⟩
  | .hbm, ⟨104, _⟩ => ⟨S4160, .i32⟩
  | .hbm, ⟨105, _⟩ => ⟨S4160, .i32⟩
  | .hbm, ⟨106, _⟩ => ⟨S4160, .i32⟩
  | .hbm, ⟨107, _⟩ => ⟨S4160x1, .i32⟩
  | .hbm, ⟨108, _⟩ => ⟨S32x64x2000, .f32⟩
  | .hbm, ⟨109, _⟩ => ⟨S32x64x128, .f32⟩
  | .hbm, ⟨110, _⟩ => ⟨S1x1x128, .f32⟩
  | .hbm, ⟨111, _⟩ => ⟨S32x64x128, .f32⟩
  | .hbm, ⟨112, _⟩ => ⟨S32x64x128, .f32⟩
  | _, _ => ⟨S32x8x64x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_c_19 : Ref sig .tc := ⟨.hbm, 100, rfl⟩
abbrev main_v72 : Ref sig .tc := ⟨.hbm, 101, rfl⟩
abbrev main_v73 : Ref sig .tc := ⟨.hbm, 102, rfl⟩
abbrev main_c_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  shapeCasts_S32x8x64x250_S32x64x2000 : S32x8x64x250.ShapeCasts S32x64x2000
  bcast_S_S4096 : S_.BroadcastsInDim S4096 (![] : Fin 0 → Fin S4096.rank)
  slices_S2x4096_S1x4096_0_0 : S2x4096.Slices ![0, 0] S1x4096
  shapeCasts_S1x4096_S4096 : S1x4096.ShapeCasts S4096
  slices_S2x4096_S1x4096_1_0 : S2x4096.Slices ![1, 0] S1x4096
  concatenates_S4096_S64_S4160_d0 : Shape.Concatenates [S4096, S64] S4160 0
  bcast_S_S64 : S_.BroadcastsInDim S64 (![] : Fin 0 → Fin S64.rank)
  bcast_S_S4160 : S_.BroadcastsInDim S4160 (![] : Fin 0 → Fin S4160.rank)
  bcast_S4160_S4160x1_0 : S4160.BroadcastsInDim S4160x1 (![0] : Fin 1 → Fin S4160x1.rank)
  bcast_S4160_S1x4160x1_1 : S4160.BroadcastsInDim S1x4160x1 (![1] : Fin 1 → Fin S1x4160x1.rank)
  bcast_S1x4160x1_S32x4160x2000_0_1_2 : S1x4160x1.BroadcastsInDim S32x4160x2000 (![0, 1, 2] : Fin 3 → Fin S32x4160x2000.rank)
  bcast_S_S32x64x2000 : S_.BroadcastsInDim S32x64x2000 (![] : Fin 0 → Fin S32x64x2000.rank)
  bcast_S128_S1x1x128_2 : S128.BroadcastsInDim S1x1x128 (![2] : Fin 1 → Fin S1x1x128.rank)
  bcast_S1x1x128_S32x64x128_0_1_2 : S1x1x128.BroadcastsInDim S32x64x128 (![0, 1, 2] : Fin 3 → Fin S32x64x128.rank)
  scatter_S64_S4160x1_S4160_n_0_0_1_wf : ScatterDims.WF S64 S4160x1 S4160 [] [0] [0] 1
  gather_S64_S4160x1_S4160_n_0_n_n_0_1_1_wf : GatherDims.WF S64 S4160x1 S4160 [] [0] [] [0] [] 1 ![1]
  gather_S32x64x2000_S4160x1_S32x4160x2000_02_1_n_n_1_1_3212000_wf : GatherDims.WF S32x64x2000 S4160x1 S32x4160x2000 [0, 2] [1] [] [1] [] 1 ![32, 1, 2000]
  scatter_S32x64x2000_S4160x1_S32x4160x2000_02_1_1_1_wf : ScatterDims.WF S32x64x2000 S4160x1 S32x4160x2000 [0, 2] [1] [1] 1
  dot_S32x64x2000_S128x2000_S32x64x128_2_1_01_0_n_n_wf : DotDims.WF S32x64x2000 S128x2000 S32x64x128 [2] [1] [0, 1] [0] [] []

variable [Facts₀]

def scatter_S64_S4160x1_S4160_n_0_0_1 : ScatterDims S64 S4160x1 S4160 where
  updateWindowDims := []
  insertedWindowDims := [0]
  scatterDimsToOperandDims := [0]
  indexVectorDim := 1
  wf := scatter_S64_S4160x1_S4160_n_0_0_1_wf
def gather_S64_S4160x1_S4160_n_0_n_n_0_1_1 : GatherDims S64 S4160x1 S4160 where
  offsetDims := []
  collapsedSliceDims := [0]
  operandBatchingDims := []
  startIndicesBatchingDims := []
  startIndexMap := [0]
  indexVectorDim := 1
  sliceSizes := ![1]
  wf := gather_S64_S4160x1_S4160_n_0_n_n_0_1_1_wf
def gather_S32x64x2000_S4160x1_S32x4160x2000_02_1_n_n_1_1_3212000 : GatherDims S32x64x2000 S4160x1 S32x4160x2000 where
  offsetDims := [0, 2]
  collapsedSliceDims := [1]
  operandBatchingDims := []
  startIndicesBatchingDims := []
  startIndexMap := [1]
  indexVectorDim := 1
  sliceSizes := ![32, 1, 2000]
  wf := gather_S32x64x2000_S4160x1_S32x4160x2000_02_1_n_n_1_1_3212000_wf
def scatter_S32x64x2000_S4160x1_S32x4160x2000_02_1_1_1 : ScatterDims S32x64x2000 S4160x1 S32x4160x2000 where
  updateWindowDims := [0, 2]
  insertedWindowDims := [1]
  scatterDimsToOperandDims := [1]
  indexVectorDim := 1
  wf := scatter_S32x64x2000_S4160x1_S32x4160x2000_02_1_1_1_wf
def dot_S32x64x2000_S128x2000_S32x64x128_2_1_01_0_n_n : DotDims S32x64x2000 S128x2000 S32x64x128 where
  lhsContracting := [2]
  rhsContracting := [1]
  lhsNonContracting := [0, 1]
  rhsNonContracting := [0]
  lhsBatch := []
  rhsBatch := []
  wf := dot_S32x64x2000_S128x2000_S32x64x128_2_1_01_0_n_n_wf

class Facts : Prop extends Facts₀ where

variable [Facts]
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.KerBody.lean ====
/-
  The kernel body's arithmetic, read at an index, at the ideal instance.

  One grid step loads a block x of 4 batches (each 64 nodes by 2000 features), the 64 by 64 matrix a2, the 2000 by 128
  matrix wt and the bias b of 128 entries. It first forms the hidden layer of all 4 batches in one product,
      hid (i, k, c) = sum over f of x (i, k, f) * wt (f, c)
  (the block flattened to 256 rows, the product reshaped back; the change of float format is the identity here), and
  then stores, for each batch i of the block, the 64 by 128 slab
      out (i, r, c) = (sum over k of a2 (r, k) * hid (i, k, c)) + b (c).
  Each stored slab is read below at (0, r, c) of its [1, 64, 128] payload.
-/
import proofs.«417759_j36283883716825_3_alg».proof.Proof.Gen.KernelIdeal.Skeleton
import proofs.«417759_j36283883716825_3_alg».proof.Proof.LibMatmulAt
import Idealize.ShloMosaic.Lib.ValueIdx
import Idealize.ShloMosaic.Lib.ValueLayout
import Idealize.ShloMosaic.Lib.Pipeline.Value

noncomputable section

open scoped BigOperators

namespace Cert.KerBody

open Idealize.ShloMosaic Idealize.ShloMosaic.ValueIdx Idealize.ShloMosaic.MatmulAt Cert.KernelIdeal Cert.KernelIdeal.Gen

/-- The hidden layer at (i, k, c): row 64 i + k of the flattened block against column c of wt. -/
theorem hidden_apply (wt : Vec Ideal S2000x128 .bf16) (xb : Vec Ideal S4x64x2000 .f32) (i : Fin 4) (k : Fin 64) (c : Fin 128) :
    k0_pay4 (F := Ideal) wt xb (ix3 i k c) = ∑ f : Fin 2000, xb (ix3 i k f) * wt (ix2 f c) := by
  have hp : i.val * 64 + k.val < 256 := by have := i.isLt; have := k.isLt; omega
  unfold k0_pay4
  refine (shapeCast_apply _ shapeCasts_S256x128_S4x64x128 (ix3 i k c) (ix2 ⟨i.val * 64 + k.val, hp⟩ c) (by
    rw [Shape.rowMajor_val_two, Shape.rowMajor_val_three]; rfl)).trans ?_
  refine (matmul_plain_apply (M := 256) (K := 2000) (N := 128) none _ _ ⟨i.val * 64 + k.val, hp⟩ c).trans ?_
  refine Finset.sum_congr rfl fun f _ => ?_
  refine congrArg₂ (· * ·) ?_ ?_
  · refine (truncf_apply (ψ := .bf16) _ bitsLt_bf16_f32 _).trans ?_
    refine (shapeCast_apply _ shapeCasts_S4x64x2000_S256x2000 (ix2 ⟨i.val * 64 + k.val, hp⟩ f) (ix3 i k f) (by
      rw [Shape.rowMajor_val_two, Shape.rowMajor_val_three]; rfl)).trans ?_
    rw [shapeCast_self]
  · rw [shapeCast_self]

/-- The bias spread over the 64 rows, at (r, c). -/
theorem bias_apply (b : Vec Ideal S128 .f32) (r : Fin 64) (c : Fin 128) :
    k0_pay3 (F := Ideal) b (ix2 r c) = b (ix1 c) := by
  unfold k0_pay3
  refine (broadcastTo_1b_ab_apply _ broadcasts_S1x128_S64x128 r c).trans ?_
  rw [shapeCast_self]
  exact shapeCast_a_1a_apply b shapeCasts_S128_S1x128 0 c

/-- One stored slab: batch o of the hidden layer multiplied by a2 from the left, the bias added, at (0, r, c). -/
theorem slab_core (a2 : FVec Ideal S64x64 .f32) (bias : FVec Ideal S64x128 .f32) (H : FVec Ideal S4x64x128 .f32)
    (o : Fin 4) (hs : S4x64x128.Slices ![o.val, 0, 0] S1x64x128) (r : Fin 64) (c : Fin 128) :
    shapeCast S1x64x128 (addf (matmul dot_S64x64_S64x128_S64x128_1_0_0_1_n_n (some .fp32) a2
        (shapeCast S64x128 (extractStridedSlice S1x64x128 ![o.val, 0, 0] H hs) shapeCasts_S1x64x128_S64x128)
        (constant S64x128 .f32 0x00000000#32)) bias) shapeCasts_S64x128_S1x64x128 (ix3 (0 : Fin 1) r c)
      = (∑ k : Fin 64, a2 (ix2 r k) * H (ix3 o k c)) + bias (ix2 r c) := by
  refine (shapeCast_ab_1ab_apply _ shapeCasts_S64x128_S1x64x128 0 r c).trans ?_
  refine (addf_apply _ _ _).trans ?_
  refine congrArg (· + bias (ix2 r c)) ?_
  refine (matmul_plain_apply (M := 64) (K := 64) (N := 128) (some .fp32) a2 _ r c).trans ?_
  refine Finset.sum_congr rfl fun k _ => ?_
  refine congrArg (a2 (ix2 r k) * ·) ?_
  refine (shapeCast_1ab_ab_apply _ shapeCasts_S1x64x128_S64x128 k c).trans ?_
  exact extractStridedSlice_apply _ H hs (ix3 (0 : Fin 1) k c) (ix3 o k c) fun a => by
    match a with
    | ⟨0, _⟩ => rfl
    | ⟨1, _⟩ => show k.val = 0 + k.val; omega
    | ⟨2, _⟩ => show c.val = 0 + c.val; omega

/-- The slab a payload stores, as one formula over the body's loads. -/
def slab (a2 : Vec Ideal S64x64 .f32) (wt : Vec Ideal S2000x128 .bf16) (b : Vec Ideal S128 .f32)
    (xb : Vec Ideal S4x64x2000 .f32) (o : Fin 4) (r : Fin 64) (c : Fin 128) : EReal :=
  (∑ k : Fin 64, a2 (ix2 r k) * ∑ f : Fin 2000, xb (ix3 o k f) * wt (ix2 f c)) + b (ix1 c)

theorem slab_of_core (a2 : Vec Ideal S64x64 .f32) (wt : Vec Ideal S2000x128 .bf16) (b : Vec Ideal S128 .f32)
    (xb : Vec Ideal S4x64x2000 .f32) (o : Fin 4) (r : Fin 64) (c : Fin 128) :
    (∑ k : Fin 64, (k0_pay2 (F := Ideal) a2) (ix2 r k) * (k0_pay4 (F := Ideal) wt xb) (ix3 o k c)) + (k0_pay3 (F := Ideal) b) (ix2 r c)
      = slab a2 wt b xb o r c := by
  unfold slab
  rw [bias_apply]
  refine congrArg (· + b (ix1 c)) (Finset.sum_congr rfl fun k _ => ?_)
  rw [hidden_apply]
  unfold k0_pay2
  rw [shapeCast_self]

theorem pay5_apply (a2 : Vec Ideal S64x64 .f32) (wt : Vec Ideal S2000x128 .bf16) (b : Vec Ideal S128 .f32)
    (xb : Vec Ideal S4x64x2000 .f32) (r : Fin 64) (c : Fin 128) :
    k0_pay5 (F := Ideal) a2 wt b xb (ix3 (0 : Fin 1) r c) = slab a2 wt b xb 0 r c := by
  unfold k0_pay5
  exact (slab_core (k0_pay2 a2) (k0_pay3 b) (k0_pay4 wt xb) 0 slices_S4x64x128_o0_0_0_S1x64x128 r c).trans (slab_of_core a2 wt b xb 0 r c)

theorem pay6_apply (a2 : Vec Ideal S64x64 .f32) (wt : Vec Ideal S2000x128 .bf16) (b : Vec Ideal S128 .f32)
    (xb : Vec Ideal S4x64x2000 .f32) (r : Fin 64) (c : Fin 128) :
    k0_pay6 (F := Ideal) a2 wt b xb (ix3 (0 : Fin 1) r c) = slab a2 wt b xb 1 r c := by
  unfold k0_pay6
  exact (slab_core (k0_pay2 a2) (k0_pay3 b) (k0_pay4 wt xb) 1 slices_S4x64x128_o1_0_0_S1x64x128 r c).trans (slab_of_core a2 wt b xb 1 r c)

theorem pay7_apply (a2 : Vec Ideal S64x64 .f32) (wt : Vec Ideal S2000x128 .bf16) (b : Vec Ideal S128 .f32)
    (xb : Vec Ideal S4x64x2000 .f32) (r : Fin 64) (c : Fin 128) :
    k0_pay7 (F := Ideal) a2 wt b xb (ix3 (0 : Fin 1) r c) = slab a2 wt b xb 2 r c := by
  unfold k0_pay7
  exact (slab_core (k0_pay2 a2) (k0_pay3 b) (k0_pay4 wt xb) 2 slices_S4x64x128_o2_0_0_S1x64x128 r c).trans (slab_of_core a2 wt b xb 2 r c)

theorem pay1_apply (a2 : Vec Ideal S64x64 .f32) (wt : Vec Ideal S2000x128 .bf16) (b : Vec Ideal S128 .f32)
    (xb : Vec Ideal S4x64x2000 .f32) (r : Fin 64) (c : Fin 128) :
    k0_pay1 (F := Ideal) (k0_pay2 a2) (k0_pay3 b) (k0_pay4 wt xb) (ix3 (0 : Fin 1) r c) = slab a2 wt b xb 3 r c := by
  unfold k0_pay1
  exact (slab_core (k0_pay2 a2) (k0_pay3 b) (k0_pay4 wt xb) 3 slices_S4x64x128_o3_0_0_S1x64x128 r c).trans (slab_of_core a2 wt b xb 3 r c)

end Cert.KerBody

end
-- ==== Proof.KerValue.lean ====
/-
  The kernel's output array after the run, as one function of the arrays the region finds.

  The grid has 8 points; point t handles batches 4 t … 4 t + 3: it reads block t of x (4 batches), the whole of a2, wt
  and the bias, and writes block t of the output. Inside a step the four stored slabs tile the output block, so the
  block a step leaves is one function of its loads; read through the blocks' positions it is the restriction of
      out (p, r, c) = (sum over k of a2 (r, k) * sum over f of x (p, k, f) * wt (f, c)) + bias (c)
  to batches 4 t … 4 t + 3; the 8 blocks cover the 32 batches, so the array ends holding that function.
-/
import proofs.«417759_j36283883716825_3_alg».proof.Proof.Gen.KernelIdeal.Value
import proofs.«417759_j36283883716825_3_alg».proof.Proof.KerBody

set_option maxRecDepth 16384

noncomputable section

open scoped BigOperators

namespace Cert.KerValue

open Idealize.ShloMosaic Idealize.ShloMosaic.ValueIdx Idealize.ShloMosaic.TcCoe Idealize.SL.Sem
open Cert.KernelIdeal Cert.KernelIdeal.Gen Cert.KernelIdeal.Value

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output block one step leaves: slab o at rows (o, ·, ·). -/
def blockOut (x0 : Vec Ideal S4x64x2000 .f32) (x1 : Vec Ideal S64x64 .f32) (x2 : Vec Ideal S2000x128 .bf16) (x3 : Vec Ideal S128 .f32) :
    Vec Ideal S4x64x128 .f32 := fun y => KerBody.slab x1 x2 x3 x0 (y 0) (y 1) (y 2)

/-- The four stored slabs tile the output block: what a step leaves is `blockOut` of its loads. -/
theorem out_eq (x0 : Vec Ideal S4x64x2000 .f32) (x1 : Vec Ideal S64x64 .f32) (x2 : Vec Ideal S2000x128 .bf16) (x3 : Vec Ideal S128 .f32) :
    out0_4 (F := Ideal) x0 x1 x2 x3 = blockOut x0 x1 x2 x3 := by
  funext y
  unfold out0_4
  simp only [View.ld_unit_zero (S := S64x64) hz2, View.ld_unit_zero (S := S2000x128) hz2, View.ld_unit_zero (S := S128) hz1,
    View.ld_unit_zero (S := S4x64x2000) hz3]
  refine View.canon_apply_of_pieces (blockOut x0 x1 x2 x3) _ ?_ y (cover0_4 _ _ _ _ y)
  intro p hp x
  simp only [List.mem_cons, List.mem_nil_iff, or_false] at hp
  rcases hp with rfl | rfl | rfl | rfl
  · obtain ⟨u, r, c, rfl⟩ : ∃ (u : Fin 1) (r : Fin 64) (c : Fin 128), x = ix3 u r c := ⟨x 0, x 1, x 2, eq_ix3 x⟩
    obtain rfl : u = 0 := Subsingleton.elim _ _
    refine (KerBody.pay1_apply x1 x2 x3 x0 r c).trans ?_
    unfold blockOut
    congr 1 <;> apply Fin.ext
    · show r.val = 0 + 1 * r.val; omega
    · show c.val = 0 + 1 * c.val; omega
  · obtain ⟨u, r, c, rfl⟩ : ∃ (u : Fin 1) (r : Fin 64) (c : Fin 128), x = ix3 u r c := ⟨x 0, x 1, x 2, eq_ix3 x⟩
    obtain rfl : u = 0 := Subsingleton.elim _ _
    refine (KerBody.pay7_apply x1 x2 x3 x0 r c).trans ?_
    unfold blockOut
    congr 1 <;> apply Fin.ext
    · show r.val = 0 + 1 * r.val; omega
    · show c.val = 0 + 1 * c.val; omega
  · obtain ⟨u, r, c, rfl⟩ : ∃ (u : Fin 1) (r : Fin 64) (c : Fin 128), x = ix3 u r c := ⟨x 0, x 1, x 2, eq_ix3 x⟩
    obtain rfl : u = 0 := Subsingleton.elim _ _
    refine (KerBody.pay6_apply x1 x2 x3 x0 r c).trans ?_
    unfold blockOut
    congr 1 <;> apply Fin.ext
    · show r.val = 0 + 1 * r.val; omega
    · show c.val = 0 + 1 * c.val; omega
  · obtain ⟨u, r, c, rfl⟩ : ∃ (u : Fin 1) (r : Fin 64) (c : Fin 128), x = ix3 u r c := ⟨x 0, x 1, x 2, eq_ix3 x⟩
    obtain rfl : u = 0 := Subsingleton.elim _ _
    refine (KerBody.pay5_apply x1 x2 x3 x0 r c).trans ?_
    unfold blockOut
    congr 1 <;> apply Fin.ext
    · show r.val = 0 + 1 * r.val; omega
    · show c.val = 0 + 1 * c.val; omega

variable (m : (ℓ : Loc nD τ sig) → Buf (Elt Ideal) ℓ)

/-- The input windows' blocks at a point and the arrays the region finds, each named at its literal type. -/
abbrev xblk (c : Dev nD) (t : Fin cfg0.N) : Vec Ideal S4x64x2000 .f32 := iblk m c 0 t
abbrev a2blk (c : Dev nD) (t : Fin cfg0.N) : Vec Ideal S64x64 .f32 := iblk m c 1 t
abbrev wtblk (c : Dev nD) (t : Fin cfg0.N) : Vec Ideal S2000x128 .bf16 := iblk m c 2 t
abbrev bblk (c : Dev nD) (t : Fin cfg0.N) : Vec Ideal S128 .f32 := iblk m c 3 t
abbrev xarr (c : Dev nD) : Vec Ideal S32x64x2000 .f32 := V m c main_v0
abbrev a2arr (c : Dev nD) : Vec Ideal S64x64 .f32 := V m c main_v58
abbrev wtarr (c : Dev nD) : Vec Ideal S2000x128 .bf16 := V m c main_v60
abbrev barr (c : Dev nD) : Vec Ideal S128 .f32 := V m c main_arg4

/-- The whole output as one function of the four arrays the region finds. -/
def G (X : Vec Ideal S32x64x2000 .f32) (A2 : Vec Ideal S64x64 .f32) (WT : Vec Ideal S2000x128 .bf16) (bv : Vec Ideal S128 .f32) :
    Vec Ideal S32x64x128 .f32 :=
  fun i => (∑ k : Fin 64, A2 (ix2 (i 1) k) * ∑ f : Fin 2000, X (ix3 (i 0) k f) * WT (ix2 f (i 2))) + bv (ix1 (i 2))

/-- The printed index maps, decided over the 8 points: x and the output move one block per point along the batch axis;
    a2, wt and the bias stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 8 := lt_of_lt_of_eq t.isLt N_0

/-- Block t of x holds batches 4 t … 4 t + 3. -/
theorem blk_x (c : Dev nD) (t : Fin cfg0.N) (u : Fin 4) (k : Fin 64) (f : Fin 2000) (p : Fin 32) (hp : p.val = t.val * 4 + u.val) :
    xblk m c t (ix3 u k f) = xarr m c (ix3 p k f) := by
  obtain ⟨e00, e01, e02, -⟩ := idx_facts t
  show V m c main_v0 (((cfg0.win 0).blk t).view.emb (ix3 u k f)) = V m c main_v0 (ix3 p k f)
  refine congrArg _ (funext fun a => Fin.ext ?_)
  match a with
  | ⟨0, _⟩ => show win0_0.index t (0 : Fin 3) * 4 + 1 * u.val = p.val; omega
  | ⟨1, _⟩ => show win0_0.index t (1 : Fin 3) * 64 + 1 * k.val = k.val; omega
  | ⟨2, _⟩ => show win0_0.index t (2 : Fin 3) * 2000 + 1 * f.val = f.val; omega

/-- The one block of a2 is a2. -/
theorem blk_a2 (c : Dev nD) (t : Fin cfg0.N) (r k : Fin 64) : a2blk m c t (ix2 r k) = a2arr m c (ix2 r k) := by
  obtain ⟨-, -, -, e10, e11, -⟩ := idx_facts t
  show V m c main_v58 (((cfg0.win 1).blk t).view.emb (ix2 r k)) = V m c main_v58 (ix2 r k)
  refine congrArg _ (funext fun a => Fin.ext ?_)
  match a with
  | ⟨0, _⟩ => show win0_1.index t (0 : Fin 2) * 64 + 1 * r.val = r.val; omega
  | ⟨1, _⟩ => show win0_1.index t (1 : Fin 2) * 64 + 1 * k.val = k.val; omega

/-- The one block of wt is wt. -/
theorem blk_wt (c : Dev nD) (t : Fin cfg0.N) (f : Fin 2000) (h : Fin 128) : wtblk m c t (ix2 f h) = wtarr m c (ix2 f h) := by
  obtain ⟨-, -, -, -, -, e20, e21, -⟩ := idx_facts t
  show V m c main_v60 (((cfg0.win 2).blk t).view.emb (ix2 f h)) = V m c main_v60 (ix2 f h)
  refine congrArg _ (funext fun a => Fin.ext ?_)
  match a with
  | ⟨0, _⟩ => show win0_2.index t (0 : Fin 2) * 2000 + 1 * f.val = f.val; omega
  | ⟨1, _⟩ => show win0_2.index t (1 : Fin 2) * 128 + 1 * h.val = h.val; omega

/-- The one block of the bias is the bias. -/
theorem blk_b (c : Dev nD) (t : Fin cfg0.N) (h : Fin 128) : bblk m c t (ix1 h) = barr m c (ix1 h) := by
  obtain ⟨-, -, -, -, -, -, -, e30, -⟩ := idx_facts t
  show V m c main_arg4 (((cfg0.win 3).blk t).view.emb (ix1 h)) = V m c main_arg4 (ix1 h)
  refine congrArg _ (funext fun a => Fin.ext ?_)
  match a with
  | ⟨0, _⟩ => show win0_3.index t (0 : Fin 1) * 128 + 1 * h.val = h.val; omega

/-- The block a step leaves, at (u, r, h), is `G` of the arrays at batch 4 t + u. -/
theorem blockOut_eq (c : Dev nD) (t : Fin cfg0.N) (u : Fin 4) (r : Fin 64) (h : Fin 128) (p : Fin 32) (hp : p.val = t.val * 4 + u.val) :
    blockOut (xblk m c t) (a2blk m c t) (wtblk m c t) (bblk m c t) (ix3 u r h)
      = G (xarr m c) (a2arr m c) (wtarr m c) (barr m c) (ix3 p r h) := by
  show (∑ k : Fin 64, a2blk m c t (ix2 r k) * ∑ f : Fin 2000, xblk m c t (ix3 u k f) * wtblk m c t (ix2 f h)) + bblk m c t (ix1 h)
      = (∑ k : Fin 64, a2arr m c (ix2 r k) * ∑ f : Fin 2000, xarr m c (ix3 p k f) * wtarr m c (ix2 f h)) + barr m c (ix1 h)
  rw [blk_b m c t h]
  refine congrArg (· + barr m c (ix1 h)) (Finset.sum_congr rfl fun k _ => ?_)
  rw [blk_a2 m c t r k]
  refine congrArg (a2arr m c (ix2 r k) * ·) (Finset.sum_congr rfl fun f _ => ?_)
  rw [blk_x m c t u k f p hp, blk_wt m c t f h]

/-- WHAT POINT t WRITES BACK is block t of `G` of the arrays the region finds. -/
theorem flushed_eq (c : Dev nD) (t : Fin cfg0.N) :
    (dats m 0 c).flushed 4 t = ((cfg0.win 4).blk t).view.read (Elt Ideal) (G (xarr m c) (a2arr m c) (wtarr m c) (barr m c)) := by
  rw [Value.flushed4, out_eq]
  obtain ⟨-, -, -, -, -, -, -, -, e40, e41, e42⟩ := idx_facts t
  have ht := point_lt t
  funext y
  obtain ⟨u, r, h, rfl⟩ : ∃ (u : Fin 4) (r : Fin 64) (h : Fin 128), y = ix3 u r h := ⟨y 0, y 1, y 2, eq_ix3 y⟩
  have hp : t.val * 4 + u.val < 32 := by have := u.isLt; omega
  have hemb : ((cfg0.win 4).blk t).view.emb (ix3 u r h) = (ix3 ⟨t.val * 4 + u.val, hp⟩ r h : S32x64x128.Idx) := by
    funext a; apply Fin.ext
    match a with
    | ⟨0, _⟩ => show win0_4.index t (0 : Fin 3) * 4 + 1 * u.val = t.val * 4 + u.val; omega
    | ⟨1, _⟩ => show win0_4.index t (1 : Fin 3) * 64 + 1 * r.val = r.val; omega
    | ⟨2, _⟩ => show win0_4.index t (2 : Fin 3) * 128 + 1 * h.val = h.val; omega
  show blockOut (xblk m c t) (a2blk m c t) (wtblk m c t) (bblk m c t) (ix3 u r h)
      = G (xarr m c) (a2arr m c) (wtarr m c) (barr m c) (((cfg0.win 4).blk t).view.emb (ix3 u r h))
  rw [hemb]
  exact blockOut_eq m c t u r h ⟨t.val * 4 + u.val, hp⟩ rfl

/-- An index of the output is in point t's block iff each coordinate is in the block's range on its axis. -/
theorem mem_blk (t : Fin cfg0.N) (i : S32x64x128.Idx) :
    i ∈ ((cfg0.win 4).blk t).view.set ↔ ∀ a : Fin 3, win0_4.index t a * S4x64x128.size a ≤ (i a).val
      ∧ (i a).val < win0_4.index t a * S4x64x128.size a + S4x64x128.size a := by
  show i ∈ ((View.whole main_v61).slice (win0_4.rect t)).set ↔ _
  rw [View.set_slice_whole, Rect.mem_set_unit]
  exact Iff.rfl

/-- The 8 blocks cover the 32 batches: batch p is in block p / 4. -/
theorem cover (i : S32x64x128.Idx) : ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 128 := (i 2).isLt
  have hN : (i 0).val / 4 < cfg0.N := lt_of_lt_of_eq (by omega : (i 0).val / 4 < 8) N_0.symm
  refine ⟨⟨(i 0).val / 4, hN⟩, flush0_4 _, ?_⟩
  obtain ⟨-, -, -, -, -, -, -, -, e40, e41, e42⟩ := idx_facts ⟨(i 0).val / 4, hN⟩
  rw [mem_blk]
  intro a
  match a with
  | ⟨0, _⟩ =>
    show win0_4.index ⟨(i 0).val / 4, hN⟩ (0 : Fin 3) * 4 ≤ (i 0).val ∧ (i 0).val < win0_4.index ⟨(i 0).val / 4, hN⟩ (0 : Fin 3) * 4 + 4
    rw [e40]; show (i 0).val / 4 * 4 ≤ (i 0).val ∧ (i 0).val < (i 0).val / 4 * 4 + 4; omega
  | ⟨1, _⟩ =>
    show win0_4.index ⟨(i 0).val / 4, hN⟩ (1 : Fin 3) * 64 ≤ (i 1).val ∧ (i 1).val < win0_4.index ⟨(i 0).val / 4, hN⟩ (1 : Fin 3) * 64 + 64
    rw [e41]; omega
  | ⟨2, _⟩ =>
    show win0_4.index ⟨(i 0).val / 4, hN⟩ (2 : Fin 3) * 128 ≤ (i 2).val ∧ (i 2).val < win0_4.index ⟨(i 0).val / 4, hN⟩ (2 : Fin 3) * 128 + 128
    rw [e42]; omega

/-- THE OUTPUT ARRAY after the run is `G` of the arrays the region finds. -/
theorem final (c : Dev nD) :
    (dats m 0 c).arrAt 4 cfg0.N = G (xarr m c) (a2arr m c) (wtarr m c) (barr m c) :=
  (dats m 0 c).arrAt_eq_of_cover 4 _ (fun t _ => flushed_eq m c t) cover

end Cert.KerValue

end
-- ==== Proof.LibGatherRead.lean ====
/-
  `stablehlo.gather` READ AT AN INDEX, for four sets of dimension numbers that jnp's indexing prints and the
  library's `Predicate.gather_take` (a rank-1 table by a column of positions) does not cover:

  * `gather_cols_apply`   — `t[:, idx]` of a table [R, N] by n column numbers: result (r, p) is the table at row r, the
    column numbered `idx[p]`;
  * `gather_mid_apply`    — `t[:, idx]` of a table [1, N, C] by n numbers on the middle axis: result (0, p, k) is the
    table at (0, `idx[p]`, k);
  * `gather_cell3_apply`  — `t[i, j, k]` of a table [A, B, C] by n coordinate triples: result p is the table at the
    triple in row p of the start indices;
  * `gather_lead_cell3_apply` — `t[:, i, j, k]` of a table [R, A, B, C] by n coordinate triples: result (r, p) is the
    table at (r, the triple in row p).

  In each the start indices are an [n, 1] or [n, 3] array with the index vector on axis 1, and every start index is read as
  StableHLO reads it: SIGNED, and CLAMPED to its axis (a negative one reads position 0, one past the end the last position).
  Each lemma takes the dimension numbers as hypotheses (`rfl` on a printed record), so it applies to any record with those
  numbers whatever its name.
-/
import Idealize.ShloMosaic.PureOps
import Idealize.ShloMosaic.Lib.ValueIdx

namespace Cert.LibGatherRead

open Idealize.ShloMosaic Idealize.ShloMosaic.ValueIdx

/-- The position a start index `w` selects on an axis of `N` positions: read signed, clamped to `[0, N − 1]`. -/
def pos {w : Nat} (N : Nat) (hN : 0 < N) (i : BitVec w) : Fin N := ⟨min i.toInt.toNat (N - 1), by omega⟩

/-- An operand axis that is start-indexed and collapsed (slice size 1) reads the start index's component for it, signed
    and clamped to the axis. -/
theorem operandIdx_indexed {s si t : Shape} {w : Nat} (d : GatherDims s si t) (j : t.Idx) (idx : IVec si w)
    (a : Fin s.rank) (hm : a ∈ d.startIndexMap) (hc : a ∈ d.collapsedSliceDims) (hb : a ∉ d.operandBatchingDims) :
    (d.operandIdx j idx a).val
      = min (idx (d.siIdx j ⟨d.startIndexMap.idxOf a, List.idxOf_lt_length_iff.2 hm⟩)).toInt.toNat (s.size a - 1) := by
  have hk : a ∉ d.sKept := fun h => ((d.mem_sKept a).1 h).1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- An operand axis that is kept whole and not start-indexed reads the result's coordinate on its offset axis. -/
theorem operandIdx_kept {s si t : Shape} {w : Nat} (d : GatherDims s si t) (j : t.Idx) (idx : IVec si w)
    (a : Fin s.rank) (hm : a ∉ d.startIndexMap) (hk : a ∈ d.sKept) :
    (d.operandIdx j idx a).val
      = (j (d.offsetDims[d.sKept.idxOf a]'(by rw [d.offset_length]; exact List.idxOf_lt_length_iff.2 hk))).val := by
  have hb := ((d.mem_sKept a).1 hk).2
  show d.start j idx a + d.batchCoord j a + d.offCoord j a = _
  rw [d.batchCoord_eq_zero j a hb, Nat.add_zero]
  unfold GatherDims.start GatherDims.offCoord
  rw [dif_neg hm, dif_pos hk, Nat.zero_add]

/-- Start indices [n, m] with the index vector on axis 1: the start-indices index of component `k` for a result index
    whose first batch coordinate is `p` is (p, k). -/
theorem siIdx_col {s t : Shape} {n m : Nat} (d : GatherDims s ⟨2, ![n, m]⟩ t) (hivd : d.indexVectorDim = 1)
    (j : t.Idx) (p : Fin n) (hp : ∀ h : 0 < d.batchDims.length, (j (d.batchDims[0]'h)).val = p.val)
    (c : Fin d.startIndexMap.length) (k : Fin m) (hck : c.val = k.val) :
    d.siIdx j c = ix2 p k := by
  funext b
  match b with
  | ⟨0, _⟩ =>
    unfold GatherDims.siIdx
    rw [dif_neg (by rw [hivd]; simp)]
    unfold GatherDims.siCoord
    apply Fin.ext
    simp only [Fin.val_cast]
    have key : ∀ (i : Nat) (h : i < d.batchDims.length), i = 0 → (j (d.batchDims[i]'h)).val = p.val := by
      intro i h hi; subst hi; exact hp h
    apply key
    show List.idxOf _ (List.filter (fun b : Fin 2 => decide (b.val ≠ d.indexVectorDim)) (List.finRange 2)) = 0
    rw [hivd]; rfl
  | ⟨1, _⟩ =>
    unfold GatherDims.siIdx
    rw [dif_pos (by rw [hivd])]
    apply Fin.ext
    exact hck

/-- COLUMNS of a table [R, N] by n column numbers (`t[:, idx]`). -/
theorem gather_cols_apply {α : Type} {R N n w : Nat} (hN : 0 < N)
    (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) :
    Host.gather d x idx (ix2 r p) = x (ix2 r (pos N hN (idx (ix2 p (0 : Fin 1))))) := by
  unfold Host.gather
  congr 1
  funext a
  apply Fin.ext
  have hb : ∀ a : Fin 2, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the rows are kept whole: the result's coordinate on its one offset axis
    have hk : (⟨0, by decide⟩ : Fin 2) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    -- the columns are start-indexed and collapsed: the column number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl

/-- The MIDDLE axis of a table [1, N, C] by n numbers (`t[:, idx]` with a leading axis of extent 1). -/
theorem gather_mid_apply {α : Type} {N C n w : Nat} (hN : 0 < N)
    (d : GatherDims ⟨3, ![1, N, C]⟩ ⟨2, ![n, 1]⟩ ⟨3, ![1, n, C]⟩)
    (hoff : d.offsetDims = [0, 2]) (hcoll : d.collapsedSliceDims = [1]) (hob : d.operandBatchingDims = [])
    (hsim : d.startIndexMap = [1]) (hivd : d.indexVectorDim = 1)
    (x : (⟨3, ![1, N, C]⟩ : Shape).Idx → α) (idx : IVec ⟨2, ![n, 1]⟩ w) (p : Fin n) (k : Fin C) :
    Host.gather d x idx (ix3 (0 : Fin 1) p k) = x (ix3 (0 : Fin 1) (pos N hN (idx (ix2 p (0 : Fin 1)))) k) := by
  unfold Host.gather
  congr 1
  funext a
  apply Fin.ext
  have hb : ∀ a : Fin 3, a ∉ d.operandBatchingDims := fun a => by rw [hob]; exact List.not_mem_nil
  -- the result's batch axis is axis 1 (axes 0 and 2 are the offset axes): its coordinate is p
  have hbd : d.batchDims = [1] := by
    show Shape.kept _ d.offsetDims = [1]
    rw [hoff]; rfl
  have hp : ∀ h : 0 < d.batchDims.length,
      ((ix3 (0 : Fin 1) p k : (⟨3, ![1, n, C]⟩ : Shape).Idx) (d.batchDims[0]'h)).val = p.val := by
    have key : ∀ (l : List (Fin 3)) (h : 0 < l.length), l = [1] →
        ((ix3 (0 : Fin 1) p k : (⟨3, ![1, n, C]⟩ : Shape).Idx) (l[0]'h)).val = p.val := by
      intro l h hl; subst hl; rfl
    exact fun h => key _ h hbd
  -- the operand's kept axes are 0 and 2, read by the result's offset axes 0 and 2 in that order
  have hsk : d.sKept = [0, 2] := by
    show Shape.kept _ (d.collapsedSliceDims ++ d.operandBatchingDims) = [0, 2]
    rw [hcoll, hob]; rfl
  have key : ∀ (l : List (Fin 3)) (i i' : Nat) (h : i < l.length), l = [0, 2] → i = i' → (h' : i' < 2) →
      ((ix3 (0 : Fin 1) p k : (⟨3, ![1, n, C]⟩ : Shape).Idx) (l[i]'h)).val
        = ((ix3 (0 : Fin 1) p k : (⟨3, ![1, n, C]⟩ : Shape).Idx) (([0, 2] : List (Fin 3))[i']'h')).val := by
    intro l i i' h hl hi h'; subst hl; subst hi; rfl
  match a with
  | ⟨0, _⟩ =>
    have hk : (⟨0, by decide⟩ : Fin 3) ∈ d.sKept := (d.mem_sKept _).2 ⟨by rw [hcoll]; simp, hb _⟩
    rw [operandIdx_kept d _ idx _ (by rw [hsim]; simp) hk]
    exact key _ _ 0 _ hoff (by rw [hsk]; rfl) (by decide)
  | ⟨1, _⟩ =>
    -- the middle axis is start-indexed and collapsed: the number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl
  | ⟨2, _⟩ =>
    have hk : (⟨2, by decide⟩ : Fin 3) ∈ d.sKept := (d.mem_sKept _).2 ⟨by rw [hcoll]; simp, hb _⟩
    rw [operandIdx_kept d _ idx _ (by rw [hsim]; simp) hk]
    exact key _ _ 1 _ hoff (by rw [hsk]; rfl) (by decide)

/-- ONE ELEMENT of a table [A, B, C] per coordinate triple (`t[i, j, k]`). -/
theorem gather_cell3_apply {α : Type} {A B C n w : Nat} (hA : 0 < A) (hB : 0 < B) (hC : 0 < C)
    (d : GatherDims ⟨3, ![A, B, C]⟩ ⟨2, ![n, 3]⟩ ⟨1, ![n]⟩)
    (hoff : d.offsetDims = []) (hcoll : d.collapsedSliceDims = [0, 1, 2]) (hob : d.operandBatchingDims = [])
    (hsim : d.startIndexMap = [0, 1, 2]) (hivd : d.indexVectorDim = 1)
    (x : (⟨3, ![A, B, C]⟩ : Shape).Idx → α) (idx : IVec ⟨2, ![n, 3]⟩ w) (p : Fin n) :
    Host.gather d x idx (ix1 p)
      = x (ix3 (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 3, a ∉ d.operandBatchingDims := fun a => by rw [hob]; exact List.not_mem_nil
  -- the result's one axis is its batch axis: a rank-1 index has the same coordinate wherever it is read
  have hp : ∀ h : 0 < d.batchDims.length, ((ix1 p : (⟨1, ![n]⟩ : Shape).Idx) (d.batchDims[0]'h)).val = p.val := fun h => by
    have e : ∀ X : Fin 1, ((ix1 p : (⟨1, ![n]⟩ : Shape).Idx) X).val = p.val := fun X => by
      obtain rfl : X = 0 := Subsingleton.elim _ _
      rfl
    exact e _
  match a with
  | ⟨0, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨1, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨2, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

/-- The LEADING axis whole, one element of the other three per coordinate triple (`t[:, i, j, k]` of a table [R, A, B, C]). -/
theorem gather_lead_cell3_apply {α : Type} {R A B C n w : Nat} (hA : 0 < A) (hB : 0 < B) (hC : 0 < C)
    (d : GatherDims ⟨4, ![R, A, B, C]⟩ ⟨2, ![n, 3]⟩ ⟨2, ![R, n]⟩)
    (hoff : d.offsetDims = [0]) (hcoll : d.collapsedSliceDims = [1, 2, 3]) (hob : d.operandBatchingDims = [])
    (hsim : d.startIndexMap = [1, 2, 3]) (hivd : d.indexVectorDim = 1)
    (x : (⟨4, ![R, A, B, C]⟩ : Shape).Idx → α) (idx : IVec ⟨2, ![n, 3]⟩ w) (r : Fin R) (p : Fin n) :
    Host.gather d x idx (ix2 r p)
      = x (ix4 r (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 4, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the kept axis: the result's coordinate on its one offset axis
    have hk : (⟨0, by decide⟩ : Fin 4) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨2, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨3, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

end Cert.LibGatherRead
-- ==== Proof.Edges.lean ====
/-
  The edge list as the programs read it.

  The graph has 64 nodes and 4160 edges: the 4096 given ones and one self loop per node. Both programs build the source
  and destination vectors of the edges from the index array and wrap a negative entry by adding 64 before every use.
  `src e` and `dst e` are the nodes those wrapped words name, read as a gather reads them (signed, clamped to 0 … 63);
  when the words are in range — which the precondition grants — the word's signed value IS the node's number, so a
  scatter (which compares the signed value with a node's number) and a gather (which clamps) agree on which node an
  edge touches.
-/
import proofs.«417759_j36283883716825_3_alg».proof.Proof.Gen.ReferenceIdeal.Read
import proofs.«417759_j36283883716825_3_alg».proof.Proof.LibGatherRead

noncomputable section

namespace Cert.Edges

open Idealize.ShloMosaic Idealize.ShloMosaic.ValueIdx Cert.ReferenceIdeal Cert.ReferenceIdeal.Read

/-- The source node of edge `e`. -/
def src (x1 : (⟨S2x4096, .i32⟩ : BufTy).Contents (Elt Ideal)) (e : Fin 4160) : Fin 64 :=
  Cert.LibGatherRead.pos 64 (by decide) (val_main_v31 (F := Ideal) x1 (ix1 e))

/-- The destination node of edge `e`. -/
def dst (x1 : (⟨S2x4096, .i32⟩ : BufTy).Contents (Elt Ideal)) (e : Fin 4160) : Fin 64 :=
  Cert.LibGatherRead.pos 64 (by decide) (val_main_v18 (F := Ideal) x1 (ix1 e))

/-- A word in range is its clamped position. -/
theorem toInt_eq_pos (w : BitVec 32) (h : 0 ≤ w.toInt ∧ w.toInt < 64) :
    w.toInt = ((Cert.LibGatherRead.pos 64 (by decide) w).val : ℤ) := by
  unfold Cert.LibGatherRead.pos
  show w.toInt = ((min w.toInt.toNat (64 - 1) : ℕ) : ℤ)
  omega

/-- An in-range source word equals a node's number iff that node is the edge's source. -/
theorem src_iff (x1 : (⟨S2x4096, .i32⟩ : BufTy).Contents (Elt Ideal))
    (h : ∀ j, 0 ≤ (val_main_v31 (F := Ideal) x1 j).toInt ∧ (val_main_v31 (F := Ideal) x1 j).toInt < 64) (e : Fin 4160) (n : Fin 64) :
    (val_main_v31 (F := Ideal) x1 (ix1 e)).toInt = (n.val : ℤ) ↔ src x1 e = n := by
  rw [toInt_eq_pos _ (h (ix1 e))]
  unfold src
  constructor
  · intro h'; exact Fin.ext (by exact_mod_cast h')
  · intro h'; rw [h']

/-- An in-range destination word equals a node's number iff that node is the edge's destination. -/
theorem dst_iff (x1 : (⟨S2x4096, .i32⟩ : BufTy).Contents (Elt Ideal))
    (h : ∀ j, 0 ≤ (val_main_v18 (F := Ideal) x1 j).toInt ∧ (val_main_v18 (F := Ideal) x1 j).toInt < 64) (e : Fin 4160) (n : Fin 64) :
    (val_main_v18 (F := Ideal) x1 (ix1 e)).toInt = (n.val : ℤ) ↔ dst x1 e = n := by
  rw [toInt_eq_pos _ (h (ix1 e))]
  unfold dst
  constructor
  · intro h'; exact Fin.ext (by exact_mod_cast h')
  · intro h'; rw [h']

end Cert.Edges

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.LibDotAt.lean ====
/-
  The host's `dot_general` of an [M, K] array with a [K, N] array, read at an output index at the ideal instance: the
  plain sum of products over the contracted axis,
      out (p, q) = ∑ k, l (p, k) · r (k, q),
  and, when the right operand is the transpose of an [N, K] array W (jnp's `x @ W.T`),
      out (p, q) = ∑ k, l (p, k) · W (q, k):
  the same sum a kernel's matmul contracting the last axes of both operands computes.
-/
import proofs.«417759_j36283883716825_3_alg».proof.Proof.LibMatmulAt
import Idealize.ShloMosaic.Lib.ValueLayout

noncomputable section

open scoped BigOperators

namespace Idealize.ShloMosaic.DotAt

open Idealize.ShloMosaic Idealize.ShloMosaic.ValueIdx Idealize.ShloMosaic.MatmulAt

variable {M K N : Nat}

/-- `out (p, q) = ∑ k, l (p, k) · r (k, q)`, whatever the precision and the schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

/-- Against a transposed [N, K] array: `out (p, q) = ∑ k, l (p, k) · W (q, k)`. -/
theorem dotGeneral_transpose_apply {φ₁ φ₂ : FTy} (prec : Option ContractPrecision) (sched : HostSchedule)
    (l : FVec Ideal ⟨2, ![M, K]⟩ φ₁) (W : FVec Ideal ⟨2, ![N, K]⟩ φ₂)
    (h : (⟨2, ![N, K]⟩ : Shape).Transposes [1, 0] ⟨2, ![K, N]⟩) (p : Fin M) (q : Fin N) :
    FloatOps.dotGeneral (DotDims.plain M K N) prec sched l (transpose ⟨2, ![K, N]⟩ [1, 0] W h) (ix2 p q)
      = ∑ k : Fin K, l (ix2 p k) * W (ix2 q k) := by
  rw [dotGeneral_plain_apply]
  exact Finset.sum_congr rfl fun k _ => by rw [transpose_ix2_apply]

end Idealize.ShloMosaic.DotAt

end
-- ==== Proof.LibSeq.lean ====
/- Lines of host operations cut in pieces.

   A line of operations run from contents V leaves the contents `after ops V`: the fold of the operations' results.
   Running a line that is two lines one after the other is running the first and then the second from what the
   first left; a property every operation of both lines has is a property of every operation of the whole. -/
import Idealize.ShloMosaic.Lib.StableHlo.Run

namespace Cert.LibSeq

open Idealize.ShloMosaic Idealize.ShloMosaic.StableHlo

variable {τ : Topo} {sig : RefSig} {Val : EltTy → Type}

/-- The contents after two lines in a row: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} {l₁ l₂ : List (HloOp τ sig Val)}
    (h₁ : l₁.Forall p) (h₂ : l₂.Forall p) : (l₁ ++ l₂).Forall p :=
  List.forall_append.mpr ⟨h₁, h₂⟩

/-- If no operation of either line leaves a buffer undetermined, none of the concatenation does. -/
theorem fresh_append {l₁ l₂ : List (HloOp τ sig Val)}
    (h₁ : ∀ op ∈ l₁, op.fresh = ∅) (h₂ : ∀ op ∈ l₂, op.fresh = ∅) : ∀ op ∈ l₁ ++ l₂, op.fresh = ∅ :=
  fun op h => (List.mem_append.mp h).elim (h₁ op) (h₂ op)

/-- A reference outside two lists is outside their concatenation. -/
theorem not_mem_append {α : Type} {r : α} {A B : List α} (hA : r ∉ A) (hB : r ∉ B) : r ∉ A ++ B :=
  fun h => (List.mem_append.mp h).elim hA hB

/-! ## An operation of three operands

The result of a three-operand operation with each operand's contents at its own reference (the library has the
four-operand form), so that the operands' own contents go on being rewritten under it. -/

theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result's reference out of the index, for one rewriting pass over a whole line. -/
theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The results of a line in one pass, a line cut in pieces included, with the three-operand form above. -/
macro "after_results_nary3" : tactic =>
  `(tactic| (simp (disch := decide) only [Cert.LibSeq.after_append, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result', Cert.LibSeq.nary3_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne', Idealize.ShloMosaic.StableHlo.nary_result_ne']))

end Cert.LibSeq
-- ==== Proof.KerStages.lean ====
/-
  The host line before the kernel region, read in stages.

  The program's host operations before the region come in five stretches: a few operations, the body of a called
  "where" (clamp the non-positive edge weights), the operations up to the degrees and their powers, the body of a second
  called "where" (the inverse square roots of the positive degrees), and the rest (the edge norms, the dense adjacency
  matrix, its square, the transposed weights). Running the whole line is running each stretch from what the one before
  left, so the contents of a buffer after the line are read one stretch at a time: each stretch's results are terms over
  the contents the previous stretch left, and those are, buffer by buffer, the reference's stages of the same name — the
  two programs compute the edge norms by the same operations in the same order.
-/
import proofs.«417759_j36283883716825_3_alg».proof.Proof.Gen.KernelIdeal.Frame
import proofs.«417759_j36283883716825_3_alg».proof.Proof.Gen.ReferenceIdeal.Read
import proofs.«417759_j36283883716825_3_alg».proof.Proof.LibSeq
import Idealize.ShloMosaic.Lib.StableHlo.Run

set_option maxRecDepth 16384

noncomputable section

namespace Cert.KerStages

open Idealize.ShloMosaic Idealize.ShloMosaic.StableHlo Idealize.ShloMosaic.TcCoe Idealize.SL.Sem
open Cert.KernelIdeal Cert.KernelIdeal.Gen
open Cert.ReferenceIdeal.Read

variable (m : (ℓ : Loc nD τ sig) → Buf (Elt Ideal) ℓ)

/-- The edge list and the edge weights among the kernel's arguments, typed as the reference's stages take them. -/
abbrev b1 (c : Dev nD) : (⟨Cert.ReferenceIdeal.S2x4096, .i32⟩ : BufTy).Contents (Elt Ideal) := m ((c : Thread nD τ).loc main_arg1)
abbrev b2 (c : Dev nD) : (⟨Cert.ReferenceIdeal.S4096, .f32⟩ : BufTy).Contents (Elt Ideal) := m ((c : Thread nD τ).loc main_arg2)

/-- A concatenation of two pieces as a function of the two pieces (the list of pieces carries each piece's shape beside
    it; written so, the pieces are ordinary arguments). -/
def cat2 {α : Type} {t s₁ s₂ : Shape} (a : Fin t.rank) (h : Shape.Concatenates [s₁, s₂] t a) (x₁ : s₁.Idx → α) (x₂ : s₂.Idx → α) :
    t.Idx → α :=
  concatenate t a [⟨s₁, x₁⟩, ⟨s₂, x₂⟩] h

theorem cat2_eq {α : Type} {t s₁ s₂ : Shape} (a : Fin t.rank) (h : Shape.Concatenates [s₁, s₂] t a) (x₁ : s₁.Idx → α) (x₂ : s₂.Idx → α) :
    concatenate t a [⟨s₁, x₁⟩, ⟨s₂, x₂⟩] h = cat2 a h x₁ x₂ := rfl

/-- The results of a stretch of operations in one pass, the pieces of a concatenation included. -/
macro "stage_results" : tactic =>
  `(tactic| (simp (disch := decide) only [↓Cert.KerStages.cat2_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne']))

/-- The contents after the first two stretches (through the clamped edge weights), -/
@[irreducible] def W1 (c : Dev nD) : Valuation τ sig (Elt Ideal) := after hostOps0_1 (after hostOps0 (fun b => m (c, b)))
/-- after the third (through the degrees' powers), -/
@[irreducible] def W2 (c : Dev nD) : Valuation τ sig (Elt Ideal) := after hostOps0_2 (W1 m c)
/-- and after the fourth (through the inverse square roots). -/
@[irreducible] def W3 (c : Dev nD) : Valuation τ sig (Elt Ideal) := after hostOps0_3 (W2 m c)

/-- The region finds what the last stretch leaves of the fourth's contents. -/
theorem V_eq (c : Dev nD) (b : Ref sig .tc) : V m c b = after hostOps0_4 (W3 m c) (Proc.devRef .tc b) := by
  unfold W3 W2 W1
  dsimp only [V]
  simp only [List.flatten_cons, List.flatten_nil, List.append_nil, Cert.LibSeq.after_append]

/-! ## After the first "where" -/

theorem s1_arg1 (c : Dev nD) : (W1 m c (Proc.devRef .tc main_arg1) : Cert.ReferenceIdeal.S2x4096.Idx → BitVec 32) = b1 m c := by
  unfold W1
  simp only [hostOps0, hostOps0_1]
  after_results

theorem s1_v3 (c : Dev nD) : (W1 m c (Proc.devRef .tc main_v3) : Cert.ReferenceIdeal.S4096.Idx → EReal) = val_main_v3 (F := Ideal) (b2 m c) := by
  unfold W1
  simp only [hostOps0, hostOps0_1]
  after_results
  rfl

/-! ## After the degrees and their powers -/

set_option maxHeartbeats 8000000 in
theorem s2_v9 (c : Dev nD) : (W2 m c (Proc.devRef .tc main_v9) : Cert.ReferenceIdeal.S4160.Idx → BitVec 32) = val_main_v9 (F := Ideal) (b1 m c) := by
  unfold W2
  simp only [hostOps0_2]
  after_results
  rw [s1_arg1 m c]
  rfl

set_option maxHeartbeats 8000000 in
theorem s2_v10 (c : Dev nD) : (W2 m c (Proc.devRef .tc main_v10) : Cert.ReferenceIdeal.S4160.Idx → BitVec 32) = val_main_v10 (F := Ideal) (b1 m c) := by
  unfold W2
  simp only [hostOps0_2]
  after_results
  rw [s1_arg1 m c]
  rfl

set_option maxHeartbeats 8000000 in
theorem s2_v12 (c : Dev nD) : (W2 m c (Proc.devRef .tc main_v12) : Cert.ReferenceIdeal.S4160.Idx → EReal) = val_main_v12 (F := Ideal) (b2 m c) := by
  unfold W2
  simp only [hostOps0_2]
  after_results
  rw [s1_v3 m c]
  rfl

set_option maxHeartbeats 16000000 in
theorem s2_v22 (c : Dev nD) : (W2 m c (Proc.devRef .tc main_v22) : Cert.ReferenceIdeal.S64.Idx → BitVec 1) = val_main_v22 (F := Ideal) (b1 m c) (b2 m c) := by
  unfold W2
  simp only [hostOps0_2]
  after_results
  rw [s1_arg1 m c, s1_v3 m c]
  rfl

set_option maxHeartbeats 16000000 in
theorem s2_v24 (c : Dev nD) : (W2 m c (Proc.devRef .tc main_v24) : Cert.ReferenceIdeal.S64.Idx → EReal) = val_main_v24 (F := Ideal) (b1 m c) (b2 m c) := by
  unfold W2
  simp only [hostOps0_2]
  after_results
  rw [s1_arg1 m c, s1_v3 m c]
  rfl

set_option maxHeartbeats 8000000 in
theorem s2_v25 (c : Dev nD) : (W2 m c (Proc.devRef .tc main_v25) : Cert.ReferenceIdeal.S64.Idx → EReal) = val_main_v25 (F := Ideal) := by
  unfold W2
  simp only [hostOps0_2]
  after_results
  rfl

/-! ## After the second "where" -/

theorem s3_v9 (c : Dev nD) : (W3 m c (Proc.devRef .tc main_v9) : Cert.ReferenceIdeal.S4160.Idx → BitVec 32) = val_main_v9 (F := Ideal) (b1 m c) := by
  unfold W3
  simp only [hostOps0_3]
  after_results
  exact s2_v9 m c

theorem s3_v10 (c : Dev nD) : (W3 m c (Proc.devRef .tc main_v10) : Cert.ReferenceIdeal.S4160.Idx → BitVec 32) = val_main_v10 (F := Ideal) (b1 m c) := by
  unfold W3
  simp only [hostOps0_3]
  after_results
  exact s2_v10 m c

theorem s3_v12 (c : Dev nD) : (W3 m c (Proc.devRef .tc main_v12) : Cert.ReferenceIdeal.S4160.Idx → EReal) = val_main_v12 (F := Ideal) (b2 m c) := by
  unfold W3
  simp only [hostOps0_3]
  after_results
  exact s2_v12 m c

set_option maxHeartbeats 8000000 in
theorem s3_v26 (c : Dev nD) : (W3 m c (Proc.devRef .tc main_v26) : Cert.ReferenceIdeal.S64.Idx → EReal) = val_main_v26 (F := Ideal) (b1 m c) (b2 m c) := by
  unfold W3
  simp only [hostOps0_3]
  after_results
  show select (W2 m c (Proc.devRef .tc main_v22) : Cert.ReferenceIdeal.S64.Idx → BitVec 1) (W2 m c (Proc.devRef .tc main_v24) : Cert.ReferenceIdeal.S64.Idx → EReal)
      (W2 m c (Proc.devRef .tc main_v25) : Cert.ReferenceIdeal.S64.Idx → EReal) = _
  rw [s2_v22 m c, s2_v24 m c, s2_v25 m c]
  rfl

end Cert.KerStages

end
-- ==== Proof.KerStages2.lean ====
/-
  Window 1 of the kernel region: the square of the dense adjacency matrix, as a term over the reference's stages.
-/
import proofs.«417759_j36283883716825_3_alg».proof.Proof.KerStages

set_option maxRecDepth 16384

noncomputable section

namespace Cert.KerStages

open Idealize.ShloMosaic Idealize.ShloMosaic.StableHlo Idealize.ShloMosaic.TcCoe Idealize.SL.Sem
open Cert.KernelIdeal Cert.KernelIdeal.Gen
open Cert.ReferenceIdeal.Read

variable (m : (ℓ : Loc nD τ sig) → Buf (Elt Ideal) ℓ)

/-! ## What the region finds in window 1 -/

/-- The edges' index pairs: row e holds the destination word then the source word of edge e (each wrapped). -/
abbrev pairs (c : Dev nD) : IVec S4160x2 32 :=
  concatenate S4160x2 1
    [⟨S4160x1, broadcastInDim S4160x1 ![0] bcast_S4160_S4160x1_0 (val_main_v18 (F := Ideal) (b1 m c))⟩,
     ⟨S4160x1, broadcastInDim S4160x1 ![0] bcast_S4160_S4160x1_0 (val_main_v31 (F := Ideal) (b1 m c))⟩]
    concatenates_S4160x1_S4160x1_S4160x2_d1

/-- The adjacency matrix: zero plus each edge's norm added at (destination, source). -/
abbrev adj (c : Dev nD) : FVec Ideal S64x64 .f32 :=
  Host.scatterAdd scatter_S64x64_S4160x2_S4160_n_01_01_1
    (broadcastInDim S64x64 ![] bcast_S_S64x64 (constant (F := Ideal) S_ .f32 0x00000000#32))
    (pairs m c) (val_main_v42 (F := Ideal) (b1 m c) (b2 m c))

set_option maxHeartbeats 32000000 in
/-- Window 1's array is the adjacency matrix times itself. -/
theorem V58_term (c : Dev nD) :
    (V m c main_v58 : S64x64.Idx → EReal) = Host.dotGeneral dot_S64x64_S64x64_S64x64_1_0_0_1_n_n none (adj m c) (adj m c) := by
  rw [V_eq]
  simp only [hostOps0_4]
  stage_results
  rw [s3_v26 m c, s3_v9 m c, s3_v10 m c, s3_v12 m c]
  rfl

end Cert.KerStages

end
-- ==== Proof.KerHost.lean ====
/-
  The arrays the kernel region finds, read at an index.

  Before the region the program reshapes x to [32, 64, 2000], builds the dense 64 by 64 adjacency matrix A by adding
  each edge's norm at (destination, source), squares it, and transposes the weight matrix (the change of float format
  that follows is the identity here). These are the contents of the region's windows 0, 1 and 2.
-/
import proofs.«417759_j36283883716825_3_alg».proof.Proof.Gen.KernelIdeal.Frame
import proofs.«417759_j36283883716825_3_alg».proof.Proof.Edges
import proofs.«417759_j36283883716825_3_alg».proof.Proof.LibScatterAddAt
import proofs.«417759_j36283883716825_3_alg».proof.Proof.LibDotAt
import proofs.«417759_j36283883716825_3_alg».proof.Proof.KerStages2
import Idealize.ShloMosaic.Lib.StableHlo.Run
import Idealize.ShloMosaic.Lib.ValueLayout
import Idealize.ShloMosaic.Lib.Pipeline.Value

set_option maxRecDepth 16384

noncomputable section

open scoped BigOperators

namespace Cert.KerHost

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The kernel's five arguments, typed as the reference's stages take them. -/
abbrev a0 (c : Dev nD) : (⟨Cert.ReferenceIdeal.S32x8x64x250, .f32⟩ : BufTy).Contents (Elt Ideal) := m ((c : Thread nD τ).loc main_arg0)
abbrev a1 (c : Dev nD) : (⟨Cert.ReferenceIdeal.S2x4096, .i32⟩ : BufTy).Contents (Elt Ideal) := m ((c : Thread nD τ).loc main_arg1)
abbrev a2 (c : Dev nD) : (⟨Cert.ReferenceIdeal.S4096, .f32⟩ : BufTy).Contents (Elt Ideal) := m ((c : Thread nD τ).loc main_arg2)
abbrev a3 (c : Dev nD) : (⟨Cert.ReferenceIdeal.S128x2000, .f32⟩ : BufTy).Contents (Elt Ideal) := m ((c : Thread nD τ).loc main_arg3)
abbrev a4 (c : Dev nD) : (⟨Cert.ReferenceIdeal.S128, .f32⟩ : BufTy).Contents (Elt Ideal) := m ((c : Thread nD τ).loc main_arg4)

/-- Window 0's array is x reshaped: the reference's first stage of the same argument. -/
theorem V_x (c : Dev nD) :
    (V m c main_v0 : S32x64x2000.Idx → EReal) = Cert.ReferenceIdeal.Read.val_main_v0 (F := Ideal) (a0 m c) := by
  dsimp only [V]
  simp only [hostOps0, hostOps0_1, hostOps0_2, hostOps0_3, hostOps0_4, List.flatten_cons, List.flatten_nil, List.append_nil,
    List.cons_append, List.nil_append]
  after_results
  rfl

/-- Window 2's array is the weight matrix transposed. -/
theorem V_wt (c : Dev nD) (f : Fin 2000) (h : Fin 128) :
    (V m c main_v60 : S2000x128.Idx → EReal) (ix2 f h) = a3 m c (ix2 h f) := by
  have e : (V m c main_v60 : S2000x128.Idx → EReal)
      = (truncf (F := Ideal) .bf16 (transpose S2000x128 [1, 0] (a3 m c) transposes_S128x2000_S2000x128_1_0) bitsLt_bf16_f32 :
          S2000x128.Idx → EReal) := by
    dsimp only [V]
    simp only [hostOps0, hostOps0_1, hostOps0_2, hostOps0_3, hostOps0_4, List.flatten_cons, List.flatten_nil, List.append_nil,
      List.cons_append, List.nil_append]
    after_results
  rw [e]
  exact transpose_ix2_apply (a3 m c) transposes_S128x2000_S2000x128_1_0 f h

/-- The edges' index pairs: row e holds the destination word then the source word of edge e. -/
abbrev pairs (c : Dev nD) : IVec S4160x2 32 :=
  concatenate S4160x2 1
    [⟨S4160x1, broadcastInDim S4160x1 ![0] bcast_S4160_S4160x1_0 (Cert.ReferenceIdeal.Read.val_main_v18 (F := Ideal) (a1 m c))⟩,
     ⟨S4160x1, broadcastInDim S4160x1 ![0] bcast_S4160_S4160x1_0 (Cert.ReferenceIdeal.Read.val_main_v31 (F := Ideal) (a1 m c))⟩]
    concatenates_S4160x1_S4160x1_S4160x2_d1

/-- The adjacency matrix: zero plus each edge's norm added at (destination, source). -/
abbrev adj (c : Dev nD) : FVec Ideal S64x64 .f32 :=
  Host.scatterAdd scatter_S64x64_S4160x2_S4160_n_01_01_1
    (broadcastInDim S64x64 ![] bcast_S_S64x64 (constant (F := Ideal) S_ .f32 0x00000000#32))
    (pairs m c) (Cert.ReferenceIdeal.Read.val_main_v42 (F := Ideal) (a1 m c) (a2 m c))

/-- Window 1's array as the operations' term: the adjacency matrix times itself. -/
theorem V_a2_term (c : Dev nD) :
    (V m c main_v58 : S64x64.Idx → EReal)
      = Host.dotGeneral dot_S64x64_S64x64_S64x64_1_0_0_1_n_n none (adj m c) (adj m c) :=
  Cert.KerStages.V58_term m c

/-- The zero matrix the adjacency matrix accumulates into. -/
theorem zeros_apply (i : S64x64.Idx) :
    broadcastInDim S64x64 ![] bcast_S_S64x64 (constant (F := Ideal) S_ .f32 0x00000000#32) i = 0 := by
  rw [broadcastInDim_apply _ bcast_S_S64x64 _ i (fun a => a.elim0) (fun a => a.elim0)]
  exact Ideal.ofBits_zero_f32

/-- Row e of the index pairs holds the first vector's word e, then the second vector's word e. -/
theorem pairs_read (u v : IVec S4160 32) (e : Fin 4160) :
    concatenate S4160x2 1
        [⟨S4160x1, broadcastInDim S4160x1 ![0] bcast_S4160_S4160x1_0 u⟩,
         ⟨S4160x1, broadcastInDim S4160x1 ![0] bcast_S4160_S4160x1_0 v⟩]
        concatenates_S4160x1_S4160x1_S4160x2_d1 (ix2 e 0) = u (ix1 e)
      ∧ concatenate S4160x2 1
        [⟨S4160x1, broadcastInDim S4160x1 ![0] bcast_S4160_S4160x1_0 u⟩,
         ⟨S4160x1, broadcastInDim S4160x1 ![0] bcast_S4160_S4160x1_0 v⟩]
        concatenates_S4160x1_S4160x1_S4160x2_d1 (ix2 e 1) = v (ix1 e) := by
  have hb : ∀ w : IVec S4160 32, broadcastInDim S4160x1 ![0] bcast_S4160_S4160x1_0 w (ix2 e 0) = w (ix1 e) := fun w =>
    broadcastInDim_apply _ bcast_S4160_S4160x1_0 w (ix2 e 0) (ix1 e) (fun a => match a with
      | ⟨0, _⟩ => by show e.val = if (4160 : Nat) = 1 then 0 else e.val; rw [if_neg (by decide)])
  constructor
  · exact (concatenate_pair_apply_left (t := S4160x2) (s₁ := S4160x1) (s₂ := S4160x1) 1 _ _
      concatenates_S4160x1_S4160x1_S4160x2_d1 (ix2 e 0) rfl (ix2 e 0)
      (fun b => match b with | ⟨0, _⟩ => rfl | ⟨1, _⟩ => rfl)).trans (hb u)
  · exact (concatenate_pair_apply_right (t := S4160x2) (s₁ := S4160x1) (s₂ := S4160x1) 1 _ _
      concatenates_S4160x1_S4160x1_S4160x2_d1 (ix2 e 1) rfl rfl (ix2 e 0)
      (fun b hb' => match b, hb' with | ⟨0, _⟩, _ => rfl | ⟨1, _⟩, hb' => absurd rfl hb') rfl).trans (hb v)

/-- A product of a square matrix with itself, read at (n, k): the sum over the middle node. -/
theorem dot_read (A : FVec Ideal S64x64 .f32) (n k : Fin 64) :
    Host.dotGeneral dot_S64x64_S64x64_S64x64_1_0_0_1_n_n none A A (ix2 n k) = ∑ j : Fin 64, A (ix2 n j) * A (ix2 j k) :=
  Idealize.ShloMosaic.DotAt.dotGeneral_plain_apply (M := 64) (K := 64) (N := 64) none .single A A n k

/-- The accumulating scatter into a zero matrix, read at (n, j): the sum of the updates whose index pair is (n, j). -/
theorem scatter_read (Z : FVec Ideal S64x64 .f32) (I : IVec S4160x2 32) (ν : FVec Ideal S4160 .f32) (hZ : ∀ i, Z i = 0)
    (n j : Fin 64) :
    Host.scatterAdd (F := Ideal) scatter_S64x64_S4160x2_S4160_n_01_01_1 Z I ν (ix2 n j)
      = ∑ e : Fin 4160, if (I (ix2 e 0)).toInt = (n.val : ℤ) ∧ (I (ix2 e 1)).toInt = (j.val : ℤ) then ν (ix1 e) else 0 := by
  rw [Cert.LibScatterAddAt.host_scatterAdd_points_apply scatter_S64x64_S4160x2_S4160_n_01_01_1 rfl rfl rfl rfl Z I ν n j,
    hZ, zero_add]

/-- The adjacency matrix at (n, j): the norms of the edges from j to n, added. -/
theorem adj_entry (c : Dev nD)
    (hs : ∀ j, 0 ≤ (Cert.ReferenceIdeal.Read.val_main_v31 (F := Ideal) (a1 m c) j).toInt ∧ (Cert.ReferenceIdeal.Read.val_main_v31 (F := Ideal) (a1 m c) j).toInt < 64)
    (hd : ∀ j, 0 ≤ (Cert.ReferenceIdeal.Read.val_main_v18 (F := Ideal) (a1 m c) j).toInt ∧ (Cert.ReferenceIdeal.Read.val_main_v18 (F := Ideal) (a1 m c) j).toInt < 64)
    (n j : Fin 64) :
    adj m c (ix2 n j)
      = ∑ e : Fin 4160, if Cert.Edges.dst (a1 m c) e = n ∧ Cert.Edges.src (a1 m c) e = j
          then Cert.ReferenceIdeal.Read.val_main_v42 (F := Ideal) (a1 m c) (a2 m c) (ix1 e) else 0 := by
  refine (scatter_read _ (pairs m c) _ zeros_apply n j).trans ?_
  refine Finset.sum_congr rfl fun e _ => ?_
  have p0 : pairs m c (ix2 e 0) = Cert.ReferenceIdeal.Read.val_main_v18 (F := Ideal) (a1 m c) (ix1 e) := (pairs_read _ _ e).1
  have p1 : pairs m c (ix2 e 1) = Cert.ReferenceIdeal.Read.val_main_v31 (F := Ideal) (a1 m c) (ix1 e) := (pairs_read _ _ e).2
  refine if_congr (and_congr ?_ ?_) rfl rfl
  · rw [p0]; exact Cert.Edges.dst_iff (a1 m c) hd e n
  · rw [p1]; exact Cert.Edges.src_iff (a1 m c) hs e j

/-- Window 1's array is the square of the adjacency matrix whose (n, j) entry adds the norms of the edges from j to n. -/
theorem V_a2 (c : Dev nD)
    (hs : ∀ j, 0 ≤ (Cert.ReferenceIdeal.Read.val_main_v31 (F := Ideal) (a1 m c) j).toInt ∧ (Cert.ReferenceIdeal.Read.val_main_v31 (F := Ideal) (a1 m c) j).toInt < 64)
    (hd : ∀ j, 0 ≤ (Cert.ReferenceIdeal.Read.val_main_v18 (F := Ideal) (a1 m c) j).toInt ∧ (Cert.ReferenceIdeal.Read.val_main_v18 (F := Ideal) (a1 m c) j).toInt < 64)
    (n k : Fin 64) :
    (V m c main_v58 : S64x64.Idx → EReal) (ix2 n k)
      = ∑ j : Fin 64,
          (∑ e : Fin 4160, if Cert.Edges.dst (a1 m c) e = n ∧ Cert.Edges.src (a1 m c) e = j
              then Cert.ReferenceIdeal.Read.val_main_v42 (F := Ideal) (a1 m c) (a2 m c) (ix1 e) else 0)
          * (∑ e : Fin 4160, if Cert.Edges.dst (a1 m c) e = j ∧ Cert.Edges.src (a1 m c) e = k
              then Cert.ReferenceIdeal.Read.val_main_v42 (F := Ideal) (a1 m c) (a2 m c) (ix1 e) else 0) := by
  refine (congrFun (V_a2_term m c) (ix2 n k)).trans ?_
  refine (dot_read (adj m c) n k).trans ?_
  refine Finset.sum_congr rfl fun j _ => ?_
  rw [adj_entry m c hs hd n j, adj_entry m c hs hd j k]

end Cert.KerHost

end
-- ==== Proof.LibMidAxis.lean ====
/-
  READING AT ONE ELEMENT the two operations that jnp's indexing `t[:, idx, :]` on a rank-3 array [B, N, C] lowers to, with
  n index words on the MIDDLE axis (start indices / scatter indices an [n, 1] array, the index vector on axis 1):

  * `gather_mid3_apply` — `stablehlo.gather`: result (b, p, k) is the table at (b, `idx[p]`, k), the index word read
    SIGNED and CLAMPED to the middle axis (a negative word reads position 0, one past the end the last position);
  * `host_scatterAdd_mid3_apply` — the accumulating float `stablehlo.scatter` (an `add` body) at the ideal instance:
    result (b, i, k) is the operand's element plus the sum, over ALL n update slabs e, of `upd[b, e, k]` for those e whose
    index word (read signed, NOT clamped) is i; a word that is negative or past the extent equals no coordinate, so its
    slab is in no element's sum.

  Both are general in the sizes; the dimension numbers enter as equations on the record's fields, which a printed record
  meets by `rfl`. Along the way: `idxEquiv3` / `sum_idx3`, a sum over a rank-3 index set as the triple sum over its
  coordinates.
-/
import proofs.«417759_j36283883716825_3_alg».proof.Proof.LibGatherRead
import proofs.«417759_j36283883716825_3_alg».proof.Proof.LibScatterAddAt

noncomputable section

open scoped BigOperators

namespace Cert.LibMidAxis

open Idealize.ShloMosaic Idealize.ShloMosaic.ValueIdx

/-! ## The gather -/

/-- The MIDDLE axis of a table [B, N, C] by n numbers (`t[:, idx, :]`): the leading and trailing axes are kept whole
    (the result's offset axes 0 and 2), the middle one is start-indexed and collapsed. -/
theorem gather_mid3_apply {α : Type} {B N C n w : Nat} (hN : 0 < N)
    (d : GatherDims ⟨3, ![B, N, C]⟩ ⟨2, ![n, 1]⟩ ⟨3, ![B, n, C]⟩)
    (hoff : d.offsetDims = [0, 2]) (hcoll : d.collapsedSliceDims = [1]) (hob : d.operandBatchingDims = [])
    (hsim : d.startIndexMap = [1]) (hivd : d.indexVectorDim = 1)
    (x : (⟨3, ![B, N, C]⟩ : Shape).Idx → α) (idx : IVec ⟨2, ![n, 1]⟩ w) (b : Fin B) (p : Fin n) (k : Fin C) :
    Host.gather d x idx (ix3 b p k) = x (ix3 b (Cert.LibGatherRead.pos N hN (idx (ix2 p (0 : Fin 1)))) k) := by
  unfold Host.gather
  congr 1
  funext a
  apply Fin.ext
  have hb : ∀ a : Fin 3, a ∉ d.operandBatchingDims := fun a => by rw [hob]; exact List.not_mem_nil
  -- the result's batch axis is axis 1 (axes 0 and 2 are the offset axes): its coordinate is p
  have hbd : d.batchDims = [1] := by
    show Shape.kept _ d.offsetDims = [1]
    rw [hoff]; rfl
  have hp : ∀ h : 0 < d.batchDims.length,
      ((ix3 b p k : (⟨3, ![B, n, C]⟩ : Shape).Idx) (d.batchDims[0]'h)).val = p.val := by
    have key : ∀ (l : List (Fin 3)) (h : 0 < l.length), l = [1] →
        ((ix3 b p k : (⟨3, ![B, n, C]⟩ : Shape).Idx) (l[0]'h)).val = p.val := by
      intro l h hl; subst hl; rfl
    exact fun h => key _ h hbd
  -- the operand's kept axes are 0 and 2, read by the result's offset axes 0 and 2 in that order
  have hsk : d.sKept = [0, 2] := by
    show Shape.kept _ (d.collapsedSliceDims ++ d.operandBatchingDims) = [0, 2]
    rw [hcoll, hob]; rfl
  have key : ∀ (l : List (Fin 3)) (i i' : Nat) (h : i < l.length), l = [0, 2] → i = i' → (h' : i' < 2) →
      ((ix3 b p k : (⟨3, ![B, n, C]⟩ : Shape).Idx) (l[i]'h)).val
        = ((ix3 b p k : (⟨3, ![B, n, C]⟩ : Shape).Idx) (([0, 2] : List (Fin 3))[i']'h')).val := by
    intro l i i' h hl hi h'; subst hl; subst hi; rfl
  match a with
  | ⟨0, _⟩ =>
    have hk : (⟨0, by decide⟩ : Fin 3) ∈ d.sKept := (d.mem_sKept _).2 ⟨by rw [hcoll]; simp, hb _⟩
    rw [Cert.LibGatherRead.operandIdx_kept d _ idx _ (by rw [hsim]; simp) hk]
    exact key _ _ 0 _ hoff (by rw [hsk]; rfl) (by decide)
  | ⟨1, _⟩ =>
    -- the middle axis is start-indexed and collapsed: the number, signed and clamped
    rw [Cert.LibGatherRead.operandIdx_indexed d _ idx _ (by rw [hsim]; simp) (by rw [hcoll]; simp) (hb _),
      Cert.LibGatherRead.siIdx_col d hivd _ p hp _ (0 : Fin 1)
        (by show List.idxOf _ d.startIndexMap = 0; rw [hsim]; rfl)]
    rfl
  | ⟨2, _⟩ =>
    have hk : (⟨2, by decide⟩ : Fin 3) ∈ d.sKept := (d.mem_sKept _).2 ⟨by rw [hcoll]; simp, hb _⟩
    rw [Cert.LibGatherRead.operandIdx_kept d _ idx _ (by rw [hsim]; simp) hk]
    exact key _ _ 1 _ hoff (by rw [hsk]; rfl) (by decide)

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Update slabs added into a rank-3 array along its middle axis, one index word per slab -/

section Mid3

variable {B N C n w : Nat}

/-- With the operand's middle axis inserted and mapped from the index word and its axes 0 and 2 the updates' window axes
    (index_vector_dim = 1 over indices [n, 1]), update `(b', e, k')`'s window starts at (0, the word `idx[e, 0]`, 0), and
    `b'`, `k'` are its coordinates on axes 0 and 2. -/
theorem mid3_start (d : ScatterDims ⟨3, ![B, N, C]⟩ ⟨2, ![n, 1]⟩ ⟨3, ![B, n, C]⟩)
    (huw : d.updateWindowDims = [0, 2]) (hiw : d.insertedWindowDims = [1]) (hsd : d.scatterDimsToOperandDims = [1])
    (hiv : d.indexVectorDim = 1) (idx : IVec ⟨2, ![n, 1]⟩ w) (b' : Fin B) (e : Fin n) (k' : Fin C) :
    (d.start (ix3 b' e k') idx 0 = 0 ∧ d.start (ix3 b' e k') idx 1 = (idx (ix2 e 0)).toInt
        ∧ d.start (ix3 b' e k') idx 2 = 0)
      ∧ d.window (ix3 b' e k') 0 = b'.val ∧ d.window (ix3 b' e k') 1 = 0 ∧ d.window (ix3 b' e k') 2 = k'.val := by
  obtain ⟨uw, iw, sd, iv, wf⟩ := d
  dsimp only at huw hiw hsd hiv
  subst huw hiw hsd hiv
  refine ⟨⟨?_, ?_, ?_⟩, ?_, ?_, ?_⟩
  · unfold ScatterDims.start; rw [dif_neg (by simp)]
  · unfold ScatterDims.start
    rw [dif_pos (show (1 : Fin 3) ∈ [(1 : Fin 3)] by decide)]
    refine congrArg (fun k => (idx k).toInt) (funext fun a => Fin.ext ?_)
    match a with
    | ⟨0, _⟩ => rfl
    | ⟨1, _⟩ => rfl
  · unfold ScatterDims.start; rw [dif_neg (by simp)]
  · unfold ScatterDims.window; rw [dif_pos (by simp [ScatterDims.sKept, Shape.kept])]; rfl
  · unfold ScatterDims.window; rw [dif_neg (by simp [ScatterDims.sKept, Shape.kept])]
  · unfold ScatterDims.window; rw [dif_pos (by simp [ScatterDims.sKept, Shape.kept])]; rfl

/-- THE MIDDLE-AXIS SCATTER READ AT (b, i, k): the operand's element plus, of every update slab whose index word is `i`
    (read signed; a negative or too large word matches no position), the element at (b, k). -/
theorem ideal_scatterAdd_mid3_apply (d : ScatterDims ⟨3, ![B, N, C]⟩ ⟨2, ![n, 1]⟩ ⟨3, ![B, n, C]⟩)
    (huw : d.updateWindowDims = [0, 2]) (hiw : d.insertedWindowDims = [1]) (hsd : d.scatterDimsToOperandDims = [1])
    (hiv : d.indexVectorDim = 1)
    (x : (⟨3, ![B, N, C]⟩ : Shape).Idx → EReal) (idx : IVec ⟨2, ![n, 1]⟩ w)
    (upd : (⟨3, ![B, n, C]⟩ : Shape).Idx → EReal) (b : Fin B) (i : Fin N) (k : Fin C) :
    Ideal.hostScatterAdd d x idx upd (ix3 b i k)
      = x (ix3 b i k) + ∑ e : Fin n, if (idx (ix2 e 0)).toInt = (i.val : ℤ) then upd (ix3 b e k) else 0 := by
  unfold Ideal.hostScatterAdd
  congr 1
  rw [Finset.sum_filter, sum_idx3, Finset.sum_comm]
  refine Finset.sum_congr rfl fun e _ => ?_
  have key : ∀ (b' : Fin B) (k' : Fin C), d.resultIdx? (ix3 b' e k') idx = some (ix3 b i k)
      ↔ (b' = b ∧ (idx (ix2 e 0)).toInt = (i.val : ℤ) ∧ k' = k) := by
    intro b' k'
    obtain ⟨⟨h0, h1, h2⟩, w0, w1, w2⟩ := mid3_start d huw hiw hsd hiv idx b' e k'
    rw [Cert.LibScatterAddAt.resultIdx?_eq_some_iff]
    constructor
    · intro h
      have a0 := h 0; have a1 := h 1; have a2 := h 2
      rw [h0, w0] at a0; rw [h1, w1] at a1; rw [h2, w2] at a2
      simp only [Nat.cast_zero, add_zero, zero_add] at a0 a1 a2
      exact ⟨Fin.ext (by exact_mod_cast a0), a1, Fin.ext (by exact_mod_cast a2)⟩
    · rintro ⟨rfl, e1, rfl⟩ a
      match a with
      | ⟨0, _⟩ => show d.start (ix3 b' e k') idx 0 + (d.window (ix3 b' e k') 0 : ℤ) = _; rw [h0, w0]; simp
      | ⟨1, _⟩ => show d.start (ix3 b' e k') idx 1 + (d.window (ix3 b' e k') 1 : ℤ) = _; rw [h1, w1, e1]; simp
      | ⟨2, _⟩ => show d.start (ix3 b' e k') idx 2 + (d.window (ix3 b' e k') 2 : ℤ) = _; rw [h2, w2]; simp
  simp only [key]
  by_cases hA : (idx (ix2 e 0)).toInt = (i.val : ℤ)
  · simp only [hA, true_and, if_true]
    rw [Finset.sum_eq_single b, Finset.sum_eq_single k]
    · simp
    · intro k' _ hk; simp [hk]
    · intro h; exact absurd (Finset.mem_univ _) h
    · intro b' _ hb
      refine Finset.sum_eq_zero fun k' _ => ?_
      simp [hb]
    · intro h; exact absurd (Finset.mem_univ _) h
  · simp only [hA, false_and, and_false, if_false]
    exact Finset.sum_eq_zero fun b' _ => Finset.sum_const_zero

/-- The same of the program's operation `Host.scatterAdd` at the ideal instance. -/
theorem host_scatterAdd_mid3_apply {φ : FTy} {B N C n w : Nat}
    (d : ScatterDims ⟨3, ![B, N, C]⟩ ⟨2, ![n, 1]⟩ ⟨3, ![B, n, C]⟩)
    (huw : d.updateWindowDims = [0, 2]) (hiw : d.insertedWindowDims = [1]) (hsd : d.scatterDimsToOperandDims = [1])
    (hiv : d.indexVectorDim = 1)
    (x : FVec Ideal ⟨3, ![B, N, C]⟩ φ) (idx : IVec ⟨2, ![n, 1]⟩ w) (upd : FVec Ideal ⟨3, ![B, n, C]⟩ φ)
    (b : Fin B) (i : Fin N) (k : Fin C) :
    Host.scatterAdd (F := Ideal) d x idx upd (ix3 b i k)
      = x (ix3 b i k) + ∑ e : Fin n, if (idx (ix2 e 0)).toInt = (i.val : ℤ) then upd (ix3 b e k) else 0 :=
  ideal_scatterAdd_mid3_apply d huw hiw hsd hiv x idx upd b i k

end Mid3

end Cert.LibMidAxis

end
-- ==== Proof.RefValue.lean ====
/-
  THE REFERENCE'S RESULT READ AT ONE ELEMENT.

  The reference propagates node features twice along the edges of a graph of 64 nodes and 4160 edges and then applies a
  linear layer. One propagation gathers, for every edge, the feature slab of the edge's source node, scales it by the
  edge's weight, and adds it into the slab of the edge's destination node. Read at batch b, node n, output channel h, the
  result is therefore

      ∑_f ( ∑_{e : dst e = n} ( ∑_{e' : dst e' = src e} X[b, src e', f] · w e' ) · w e ) · W[h, f]  +  bias[h],

  X the input features seen as [32, 64, 2000], w the normalised edge weight, W the layer's matrix. The file reads the
  program's stages one at a time, from the first gather down to the final sum: each gather by the middle-axis gather
  lemma (the clamped source word is the edge's source node), each scatter by the middle-axis scatter lemma (an in-range
  destination word equals a node's number iff that node is the edge's destination), the broadcasts, products and the
  contraction by their generated read-at-an-index lemmas.
-/
import proofs.«417759_j36283883716825_3_alg».proof.Proof.Gen.ReferenceIdeal.Read
import proofs.«417759_j36283883716825_3_alg».proof.Proof.LibMidAxis
import proofs.«417759_j36283883716825_3_alg».proof.Proof.Edges
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Read

/-! ## The wrapped index vectors are spelt several times: each spelling is the same vector -/

/-- The first scatter's destination words are the wrapped destination vector. -/
theorem v58_eq (x1 : (⟨S2x4096, .i32⟩ : BufTy).Contents (Elt Ideal)) : val_main_v58 (F := Ideal) x1 = val_main_v18 (F := Ideal) x1 := rfl
/-- The second scatter's destination words are the wrapped destination vector. -/
theorem v76_eq (x1 : (⟨S2x4096, .i32⟩ : BufTy).Contents (Elt Ideal)) : val_main_v76 (F := Ideal) x1 = val_main_v18 (F := Ideal) x1 := rfl
/-- The first gather's source words are the wrapped source vector. -/
theorem v47_eq (x1 : (⟨S2x4096, .i32⟩ : BufTy).Contents (Elt Ideal)) : val_main_v47 (F := Ideal) x1 = val_main_v31 (F := Ideal) x1 := rfl
/-- The second gather's source words are the wrapped source vector. -/
theorem v65_eq (x1 : (⟨S2x4096, .i32⟩ : BufTy).Contents (Elt Ideal)) : val_main_v65 (F := Ideal) x1 = val_main_v31 (F := Ideal) x1 := rfl

/-- Row e of a column of index words read off a vector is the vector's entry e. -/
theorem col_idx (e : Fin 4160) :
    (fun a => match a with | ⟨0, _⟩ => ⟨((ix2 e (0 : Fin 1) : S4160x1.Idx) 0).val, ((ix2 e (0 : Fin 1) : S4160x1.Idx) 0).isLt⟩ : S4160.Idx)
      = ix1 e := by
  funext a; match a with | ⟨0, _⟩ => rfl

theorem v48_at (x1 : (⟨S2x4096, .i32⟩ : BufTy).Contents (Elt Ideal)) (e : Fin 4160) :
    val_main_v48 (F := Ideal) x1 (ix2 e (0 : Fin 1)) = val_main_v31 (F := Ideal) x1 (ix1 e) := by
  rw [val_main_v48_apply, v47_eq]
  exact congrArg _ (col_idx e)

theorem v59_at (x1 : (⟨S2x4096, .i32⟩ : BufTy).Contents (Elt Ideal)) (e : Fin 4160) :
    val_main_v59 (F := Ideal) x1 (ix2 e (0 : Fin 1)) = val_main_v18 (F := Ideal) x1 (ix1 e) := by
  rw [val_main_v59_apply, v58_eq]
  exact congrArg _ (col_idx e)

theorem v66_at (x1 : (⟨S2x4096, .i32⟩ : BufTy).Contents (Elt Ideal)) (e : Fin 4160) :
    val_main_v66 (F := Ideal) x1 (ix2 e (0 : Fin 1)) = val_main_v31 (F := Ideal) x1 (ix1 e) := by
  rw [val_main_v66_apply, v65_eq]
  exact congrArg _ (col_idx e)

theorem v77_at (x1 : (⟨S2x4096, .i32⟩ : BufTy).Contents (Elt Ideal)) (e : Fin 4160) :
    val_main_v77 (F := Ideal) x1 (ix2 e (0 : Fin 1)) = val_main_v18 (F := Ideal) x1 (ix1 e) := by
  rw [val_main_v77_apply, v76_eq]
  exact congrArg _ (col_idx e)

/-! ## The edge weight broadcast over batch and feature -/

theorem v51_at (x1 : (⟨S2x4096, .i32⟩ : BufTy).Contents (Elt Ideal)) (x2 : (⟨S4096, .f32⟩ : BufTy).Contents (Elt Ideal)) (b : Fin 32) (e : Fin 4160) (f : Fin 2000) :
    val_main_v51 (F := Ideal) x1 x2 (ix3 b e f) = val_main_v42 (F := Ideal) x1 x2 (ix1 e) := by
  rw [val_main_v51_apply, val_main_v50_apply]
  refine congrArg _ (funext fun a => ?_)
  match a with | ⟨0, _⟩ => rfl

theorem v69_at (x1 : (⟨S2x4096, .i32⟩ : BufTy).Contents (Elt Ideal)) (x2 : (⟨S4096, .f32⟩ : BufTy).Contents (Elt Ideal)) (b : Fin 32) (e : Fin 4160) (f : Fin 2000) :
    val_main_v69 (F := Ideal) x1 x2 (ix3 b e f) = val_main_v42 (F := Ideal) x1 x2 (ix1 e) := by
  rw [val_main_v69_apply, val_main_v68_apply]
  refine congrArg _ (funext fun a => ?_)
  match a with | ⟨0, _⟩ => rfl

/-! ## The arrays the scatters add into are zero -/

theorem v53_at (i : S32x64x2000.Idx) : val_main_v53 (F := Ideal) i = 0 := by
  rw [val_main_v53_apply, val_main_cst_13_apply]
  exact Ideal.ofBits_zero_f32

theorem v71_at (i : S32x64x2000.Idx) : val_main_v71 (F := Ideal) i = 0 := by
  rw [val_main_v71_apply, val_main_cst_18_apply]
  exact Ideal.ofBits_zero_f32

/-! ## The first propagation -/

/-- The first gather reads the features at the edge's source node. -/
theorem v49_at (x0 : (⟨S32x8x64x250, .f32⟩ : BufTy).Contents (Elt Ideal)) (x1 : (⟨S2x4096, .i32⟩ : BufTy).Contents (Elt Ideal)) (b : Fin 32) (e : Fin 4160) (f : Fin 2000) :
    val_main_v49 (F := Ideal) x0 x1 (ix3 b e f) = val_main_v0 (F := Ideal) x0 (ix3 b (Cert.Edges.src x1 e) f) := by
  unfold val_main_v49
  rw [Cert.LibMidAxis.gather_mid3_apply (by decide : 0 < 64) gather_S32x64x2000_S4160x1_S32x4160x2000_02_1_n_n_1_1_3212000 rfl rfl rfl rfl rfl, v48_at]
  rfl

/-- … scaled by the edge's weight. -/
theorem v52_at (x0 : (⟨S32x8x64x250, .f32⟩ : BufTy).Contents (Elt Ideal)) (x1 : (⟨S2x4096, .i32⟩ : BufTy).Contents (Elt Ideal)) (x2 : (⟨S4096, .f32⟩ : BufTy).Contents (Elt Ideal)) (b : Fin 32) (e : Fin 4160) (f : Fin 2000) :
    val_main_v52 (F := Ideal) x0 x1 x2 (ix3 b e f)
      = val_main_v0 (F := Ideal) x0 (ix3 b (Cert.Edges.src x1 e) f) * val_main_v42 (F := Ideal) x1 x2 (ix1 e) := by
  rw [val_main_v52_apply, v49_at, v51_at]
  rfl

/-- The first scatter: node i collects the scaled features of the edges that end at i. -/
theorem v60_at (x0 : (⟨S32x8x64x250, .f32⟩ : BufTy).Contents (Elt Ideal)) (x1 : (⟨S2x4096, .i32⟩ : BufTy).Contents (Elt Ideal)) (x2 : (⟨S4096, .f32⟩ : BufTy).Contents (Elt Ideal))
    (hd : ∀ j, 0 ≤ (val_main_v18 (F := Ideal) x1 j).toInt ∧ (val_main_v18 (F := Ideal) x1 j).toInt < 64) (b : Fin 32) (i : Fin 64) (f : Fin 2000) :
    val_main_v60 (F := Ideal) x0 x1 x2 (ix3 b i f)
      = ∑ e' : Fin 4160, if Cert.Edges.dst x1 e' = i
          then val_main_v0 (F := Ideal) x0 (ix3 b (Cert.Edges.src x1 e') f) * val_main_v42 (F := Ideal) x1 x2 (ix1 e') else 0 := by
  unfold val_main_v60
  rw [Cert.LibMidAxis.host_scatterAdd_mid3_apply scatter_S32x64x2000_S4160x1_S32x4160x2000_02_1_1_1 rfl rfl rfl rfl, v53_at, zero_add]
  refine Finset.sum_congr rfl fun e' _ => ?_
  rw [v59_at, v52_at]
  exact if_congr (Cert.Edges.dst_iff x1 hd e' i) rfl rfl

/-! ## The second propagation -/

/-- The second gather reads the first propagation's result at the edge's source node. -/
theorem v67_at (x0 : (⟨S32x8x64x250, .f32⟩ : BufTy).Contents (Elt Ideal)) (x1 : (⟨S2x4096, .i32⟩ : BufTy).Contents (Elt Ideal)) (x2 : (⟨S4096, .f32⟩ : BufTy).Contents (Elt Ideal)) (b : Fin 32) (e : Fin 4160) (f : Fin 2000) :
    val_main_v67 (F := Ideal) x0 x1 x2 (ix3 b e f) = val_main_v60 (F := Ideal) x0 x1 x2 (ix3 b (Cert.Edges.src x1 e) f) := by
  unfold val_main_v67
  rw [Cert.LibMidAxis.gather_mid3_apply (by decide : 0 < 64) gather_S32x64x2000_S4160x1_S32x4160x2000_02_1_n_n_1_1_3212000 rfl rfl rfl rfl rfl, v66_at]
  rfl

/-- … scaled by the edge's weight. -/
theorem v70_at (x0 : (⟨S32x8x64x250, .f32⟩ : BufTy).Contents (Elt Ideal)) (x1 : (⟨S2x4096, .i32⟩ : BufTy).Contents (Elt Ideal)) (x2 : (⟨S4096, .f32⟩ : BufTy).Contents (Elt Ideal)) (b : Fin 32) (e : Fin 4160) (f : Fin 2000) :
    val_main_v70 (F := Ideal) x0 x1 x2 (ix3 b e f)
      = val_main_v60 (F := Ideal) x0 x1 x2 (ix3 b (Cert.Edges.src x1 e) f) * val_main_v42 (F := Ideal) x1 x2 (ix1 e) := by
  rw [val_main_v70_apply, v67_at, v69_at]
  rfl

/-- The second scatter: node n collects, over the edges that end at n, the first propagation's result at their source. -/
theorem v78_at (x0 : (⟨S32x8x64x250, .f32⟩ : BufTy).Contents (Elt Ideal)) (x1 : (⟨S2x4096, .i32⟩ : BufTy).Contents (Elt Ideal)) (x2 : (⟨S4096, .f32⟩ : BufTy).Contents (Elt Ideal))
    (hd : ∀ j, 0 ≤ (val_main_v18 (F := Ideal) x1 j).toInt ∧ (val_main_v18 (F := Ideal) x1 j).toInt < 64) (b : Fin 32) (n : Fin 64) (f : Fin 2000) :
    val_main_v78 (F := Ideal) x0 x1 x2 (ix3 b n f)
      = ∑ e : Fin 4160, if Cert.Edges.dst x1 e = n then
          (∑ e' : Fin 4160, if Cert.Edges.dst x1 e' = Cert.Edges.src x1 e
              then val_main_v0 (F := Ideal) x0 (ix3 b (Cert.Edges.src x1 e') f) * val_main_v42 (F := Ideal) x1 x2 (ix1 e') else 0)
            * val_main_v42 (F := Ideal) x1 x2 (ix1 e) else 0 := by
  unfold val_main_v78
  rw [Cert.LibMidAxis.host_scatterAdd_mid3_apply scatter_S32x64x2000_S4160x1_S32x4160x2000_02_1_1_1 rfl rfl rfl rfl, v71_at, zero_add]
  refine Finset.sum_congr rfl fun e _ => ?_
  rw [v77_at, v70_at, v60_at x0 x1 x2 hd]
  exact if_congr (Cert.Edges.dst_iff x1 hd e n) rfl rfl

/-! ## The linear layer -/

/-- THE REFERENCE'S RESULT at batch b, node n, channel h. -/
theorem result_apply (x0 : (⟨S32x8x64x250, .f32⟩ : BufTy).Contents (Elt Ideal)) (x1 : (⟨S2x4096, .i32⟩ : BufTy).Contents (Elt Ideal))
    (x2 : (⟨S4096, .f32⟩ : BufTy).Contents (Elt Ideal)) (x3 : (⟨S128x2000, .f32⟩ : BufTy).Contents (Elt Ideal))
    (x4 : (⟨S128, .f32⟩ : BufTy).Contents (Elt Ideal))
    (hs : ∀ j, 0 ≤ (val_main_v31 (F := Ideal) x1 j).toInt ∧ (val_main_v31 (F := Ideal) x1 j).toInt < 64)
    (hd : ∀ j, 0 ≤ (val_main_v18 (F := Ideal) x1 j).toInt ∧ (val_main_v18 (F := Ideal) x1 j).toInt < 64)
    (b : Fin 32) (n : Fin 64) (h : Fin 128) :
    val_main_v82 (F := Ideal) x0 x1 x2 x3 x4 (ix3 b n h)
      = (∑ f : Fin 2000, (∑ e : Fin 4160, if Cert.Edges.dst x1 e = n then
            (∑ e' : Fin 4160, if Cert.Edges.dst x1 e' = Cert.Edges.src x1 e
                then val_main_v0 (F := Ideal) x0 (ix3 b (Cert.Edges.src x1 e') f) * val_main_v42 (F := Ideal) x1 x2 (ix1 e') else 0)
              * val_main_v42 (F := Ideal) x1 x2 (ix1 e) else 0) * x3 (ix2 h f)) + x4 (ix1 h) := by
  have hl : ∀ k : Fin 2000, lidx_main_v79 (ix3 b n h) k = ix3 b n k := fun k => funext fun a => by
    match a with
    | ⟨0, _⟩ => rfl
    | ⟨1, _⟩ => rfl
    | ⟨2, _⟩ => rfl
  have hr : ∀ k : Fin 2000, ridx_main_v79 (ix3 b n h) k = ix2 h k := fun k => funext fun a => by
    match a with
    | ⟨0, _⟩ => rfl
    | ⟨1, _⟩ => rfl
  have h4 : idx_main_v80 (idx_main_v81 (ix3 b n h)) = ix1 h := funext fun a => by
    match a with
    | ⟨0, _⟩ => rfl
  have key : (∑ k : Fin 2000, (val_main_v78 (F := Ideal) x0 x1 x2) (lidx_main_v79 (ix3 b n h) k) * x3 (ridx_main_v79 (ix3 b n h) k))
      = ∑ f : Fin 2000, (∑ e : Fin 4160, if Cert.Edges.dst x1 e = n then
            (∑ e' : Fin 4160, if Cert.Edges.dst x1 e' = Cert.Edges.src x1 e
                then val_main_v0 (F := Ideal) x0 (ix3 b (Cert.Edges.src x1 e') f) * val_main_v42 (F := Ideal) x1 x2 (ix1 e') else 0)
              * val_main_v42 (F := Ideal) x1 x2 (ix1 e) else 0) * x3 (ix2 h f) :=
    Finset.sum_congr rfl fun f _ => by rw [hl, hr, v78_at x0 x1 x2 hd]
  rw [val_main_v82_apply, val_main_v79_apply, val_main_v81_apply, val_main_v80_apply, h4, key]
  rfl

end Cert.RefValue

end
-- ==== Proof.LibTwoHop.lean ====
import Mathlib.Data.EReal.Basic
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Tactic.Ring

/-!
# Two hops of weighted message passing, followed by a linear map

Let a weighted directed multigraph be given as an edge list: every edge `e` has a source node
`s e`, a destination node `d e` and a weight `ν e`.  Its dense adjacency matrix is
`A n k = ∑ e, [d e = n ∧ s e = k] · ν e`.

One hop of message passing sends a node feature table `X` to
`(hop X) n f = ∑ e, [d e = n] · X (s e) f · ν e`, which is `A` applied to `X`.

This file proves that two hops over the edge list followed by a linear map `W` (one output row)
equal the squared dense adjacency matrix applied after the linear map:

`∑ k, (A * A) n k · (∑ f, X k f · W f) = ∑ f, (hop (hop X)) n f · W f`.

The identity is first proved over the real numbers (`two_hop_linear_real`).  On the extended
reals it fails in general, because multiplication does not distribute over addition at the
infinities; it does hold for finite data, that is, when every weight, feature and coefficient is
the image of a real number (`two_hop_linear`).  The transfer uses that the inclusion of the reals
into the extended reals commutes with finite sums (`coe_finset_sum`).
-/

namespace Cert.LibTwoHop

/-- The inclusion of the reals into the extended reals commutes with finite sums. -/
theorem coe_finset_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The inclusion of the reals into the extended reals commutes with a choice between a value
and zero. -/
theorem coe_ite_zero (c : Prop) [Decidable c] (a : ℝ) :
    ((if c then a else 0 : ℝ) : EReal) = if c then (a : EReal) else 0 := by
  split_ifs <;> simp

/-- One hop over the reals: row `j` of the dense adjacency matrix applied to a node function `g`
is the weighted sum of `g` at the sources of the edges that end in `j`. -/
theorem hop_real {E V : Type} [Fintype E] [Fintype V] [DecidableEq V]
    (s d : E → V) (ν : E → ℝ) (g : V → ℝ) (j : V) :
    (∑ k : V, (∑ e : E, if d e = j ∧ s e = k then ν e else 0) * g k)
      = ∑ e : E, if d e = j then ν e * g (s e) else 0 := by
  have h1 : (∑ k : V, (∑ e : E, if d e = j ∧ s e = k then ν e else 0) * g k)
      = ∑ k : V, ∑ e : E, (if d e = j ∧ s e = k then ν e else 0) * g k :=
    Finset.sum_congr rfl fun k _ => Finset.sum_mul _ _ _
  rw [h1, Finset.sum_comm]
  refine Finset.sum_congr rfl fun e _ => ?_
  by_cases h : d e = j
  · -- the sum over `k` has the single non-zero term `k = s e`
    simp only [h, true_and, if_true, ite_mul, zero_mul]
    rw [Finset.sum_ite_eq]
    simp
  · simp [h]

/-- Two hops followed by a linear map, over the reals.  Both sides equal
`∑ e, [d e = n] · ν e · ∑ e', [d e' = s e] · ν e' · ∑ f, X (s e') f · W f`. -/
theorem two_hop_linear_real {E V Φ : Type} [Fintype E] [Fintype V] [Fintype Φ] [DecidableEq V]
    (s d : E → V) (ν : E → ℝ) (X : V → Φ → ℝ) (W : Φ → ℝ) (n : V) :
    (∑ k : V, (∑ j : V, (∑ e : E, if d e = n ∧ s e = j then ν e else 0) * (∑ e : E, if d e = j ∧ s e = k then ν e else 0))
        * (∑ f : Φ, X k f * W f))
    = ∑ f : Φ, (∑ e : E, if d e = n then (∑ e' : E, if d e' = s e then X (s e') f * ν e' else 0) * ν e else 0) * W f := by
  -- the common value of both sides
  have hL : (∑ k : V, (∑ j : V, (∑ e : E, if d e = n ∧ s e = j then ν e else 0)
        * (∑ e : E, if d e = j ∧ s e = k then ν e else 0)) * (∑ f : Φ, X k f * W f))
      = ∑ e : E, if d e = n then
          ν e * (∑ e' : E, if d e' = s e then ν e' * (∑ f : Φ, X (s e') f * W f) else 0) else 0 := by
    calc (∑ k : V, (∑ j : V, (∑ e : E, if d e = n ∧ s e = j then ν e else 0)
            * (∑ e : E, if d e = j ∧ s e = k then ν e else 0)) * (∑ f : Φ, X k f * W f))
        = ∑ k : V, ∑ j : V, (∑ e : E, if d e = n ∧ s e = j then ν e else 0)
            * ((∑ e : E, if d e = j ∧ s e = k then ν e else 0) * (∑ f : Φ, X k f * W f)) := by
          refine Finset.sum_congr rfl fun k _ => ?_
          rw [Finset.sum_mul]
          exact Finset.sum_congr rfl fun j _ => mul_assoc _ _ _
      _ = ∑ j : V, (∑ e : E, if d e = n ∧ s e = j then ν e else 0)
            * (∑ k : V, (∑ e : E, if d e = j ∧ s e = k then ν e else 0) * (∑ f : Φ, X k f * W f)) := by
          rw [Finset.sum_comm]
          exact Finset.sum_congr rfl fun j _ => (Finset.mul_sum _ _ _).symm
      _ = ∑ j : V, (∑ e : E, if d e = n ∧ s e = j then ν e else 0)
            * (∑ e' : E, if d e' = j then ν e' * (∑ f : Φ, X (s e') f * W f) else 0) := by
          -- the inner hop
          refine Finset.sum_congr rfl fun j _ => congrArg _ ?_
          exact hop_real s d ν (fun k => ∑ f : Φ, X k f * W f) j
      _ = ∑ e : E, if d e = n then
            ν e * (∑ e' : E, if d e' = s e then ν e' * (∑ f : Φ, X (s e') f * W f) else 0) else 0 :=
          -- the outer hop
          hop_real s d ν
            (fun j => ∑ e' : E, if d e' = j then ν e' * (∑ f : Φ, X (s e') f * W f) else 0) n
  have hR : (∑ f : Φ, (∑ e : E, if d e = n then
        (∑ e' : E, if d e' = s e then X (s e') f * ν e' else 0) * ν e else 0) * W f)
      = ∑ e : E, if d e = n then
          ν e * (∑ e' : E, if d e' = s e then ν e' * (∑ f : Φ, X (s e') f * W f) else 0) else 0 := by
    calc (∑ f : Φ, (∑ e : E, if d e = n then
            (∑ e' : E, if d e' = s e then X (s e') f * ν e' else 0) * ν e else 0) * W f)
        = ∑ f : Φ, ∑ e : E, (if d e = n then
            (∑ e' : E, if d e' = s e then X (s e') f * ν e' else 0) * ν e else 0) * W f :=
          Finset.sum_congr rfl fun f _ => Finset.sum_mul _ _ _
      _ = ∑ e : E, ∑ f : Φ, (if d e = n then
            (∑ e' : E, if d e' = s e then X (s e') f * ν e' else 0) * ν e else 0) * W f :=
          Finset.sum_comm
      _ = ∑ e : E, if d e = n then
            ν e * (∑ e' : E, if d e' = s e then ν e' * (∑ f : Φ, X (s e') f * W f) else 0) else 0 := by
          refine Finset.sum_congr rfl fun e _ => ?_
          by_cases h : d e = n
          · simp only [if_pos h]
            calc (∑ f : Φ, (∑ e' : E, if d e' = s e then X (s e') f * ν e' else 0) * ν e * W f)
                = ∑ f : Φ, ∑ e' : E, (if d e' = s e then X (s e') f * ν e' else 0) * ν e * W f := by
                  refine Finset.sum_congr rfl fun f _ => ?_
                  rw [Finset.sum_mul, Finset.sum_mul]
              _ = ∑ e' : E, ∑ f : Φ, (if d e' = s e then X (s e') f * ν e' else 0) * ν e * W f :=
                  Finset.sum_comm
              _ = ∑ e' : E, ν e * (if d e' = s e then ν e' * (∑ f : Φ, X (s e') f * W f) else 0) := by
                  refine Finset.sum_congr rfl fun e' _ => ?_
                  by_cases h' : d e' = s e
                  · simp only [if_pos h']
                    rw [Finset.mul_sum, Finset.mul_sum]
                    exact Finset.sum_congr rfl fun f _ => by ring
                  · simp [h']
              _ = ν e * (∑ e' : E, if d e' = s e then ν e' * (∑ f : Φ, X (s e') f * W f) else 0) :=
                  (Finset.mul_sum _ _ _).symm
          · simp [h]
  rw [hL, hR]

/-- Two hops of weighted message passing over an edge list followed by a linear map equal the
squared dense adjacency matrix applied after the linear map, for finite real data read in the
extended reals. -/
theorem two_hop_linear {E V Φ : Type} [Fintype E] [Fintype V] [Fintype Φ] [DecidableEq V]
    (s d : E → V) (ν : E → EReal) (X : V → Φ → EReal) (W : Φ → EReal) (n : V)
    (hν : ∀ e, ∃ r : ℝ, ν e = (r : EReal)) (hX : ∀ k f, ∃ r : ℝ, X k f = (r : EReal)) (hW : ∀ f, ∃ r : ℝ, W f = (r : EReal)) :
    (∑ k : V, (∑ j : V, (∑ e : E, if d e = n ∧ s e = j then ν e else 0) * (∑ e : E, if d e = j ∧ s e = k then ν e else 0))
        * (∑ f : Φ, X k f * W f))
    = ∑ f : Φ, (∑ e : E, if d e = n then (∑ e' : E, if d e' = s e then X (s e') f * ν e' else 0) * ν e else 0) * W f := by
  -- name the real data behind the extended-real data
  choose νr hνr using hν
  choose Xr hXr using hX
  choose Wr hWr using hW
  obtain rfl : ν = fun e => (νr e : EReal) := funext hνr
  obtain rfl : X = fun k f => (Xr k f : EReal) := funext fun k => funext fun f => hXr k f
  obtain rfl : W = fun f => (Wr f : EReal) := funext hWr
  -- include the real identity into the extended reals and push the inclusion inwards
  have key := congrArg (fun x : ℝ => (x : EReal)) (two_hop_linear_real s d νr Xr Wr n)
  simp only [coe_finset_sum, EReal.coe_mul, coe_ite_zero] at key
  exact key

end Cert.LibTwoHop
-- ==== Proof.NormReal.lean ====
import proofs.«417759_j36283883716825_3_alg».proof.Proof.Gen.ReferenceIdeal.Read
import Idealize.ShloMosaic.Lib.Pipeline.Value
import Idealize.ShloMosaic.PureOps.Ideal
import Mathlib.Data.EReal.Basic
import Mathlib.Data.EReal.Operations

/-!
# The reference's edge-norm vector is real-valued

With finite edge weights, every stage of the symmetric normalisation
`norm = dinv[src] * w_full * dinv[dst]` is a finite real at the ideal (extended-real) semantics:

* the clamped weights `w` choose between a finite constant and a finite weight;
* `w_full` joins `w` with a vector of ones;
* the degree `deg` is a finite sum of entries of `w_full` added to zero;
* `deg ** -0.5` is `Real.rpow` of two reals, hence a real whatever the sign of `deg`;
* `dinv` chooses between that power and zero;
* a gather only reads entries of `dinv`, and a product of reals is a real.

Each closure property is a small lemma about vectors of extended reals; the theorem chains them down the
stages of the program.
-/

noncomputable section

namespace Cert.NormReal

open Idealize.ShloMosaic Cert.ReferenceIdeal Cert.ReferenceIdeal.Read

/-- A vector of extended reals all of whose entries are finite. -/
def IsReal {ι : Type} (v : ι → EReal) : Prop := ∀ i, ∃ r : ℝ, v i = (r : EReal)

/-! ### Constants -/

/-- An IEEE pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

theorem const_zero_real : ∃ r : ℝ, FloatOps.ofBits (F := Ideal) .f32 0x00000000#32 = (r : EReal) :=
  ieee_real 8 23 (0x00000000#32) (by decide)

theorem const_eps_real : ∃ r : ℝ, FloatOps.ofBits (F := Ideal) .f32 0x358637BD#32 = (r : EReal) :=
  ieee_real 8 23 (0x358637BD#32) (by decide)

theorem const_one_real : ∃ r : ℝ, FloatOps.ofBits (F := Ideal) .f32 0x3F800000#32 = (r : EReal) :=
  ieee_real 8 23 (0x3F800000#32) (by decide)

theorem const_neg_half_real : ∃ r : ℝ, FloatOps.ofBits (F := Ideal) .f32 0xBF000000#32 = (r : EReal) :=
  ieee_real 8 23 (0xBF000000#32) (by decide)

/-! ### Closure under the pointwise operations -/

/-- A selection between two real vectors is real, whatever the mask. -/
theorem select_real {s : Shape} (c : IVec s 1) (a b : s.Idx → EReal) (ha : IsReal a) (hb : IsReal b) :
    IsReal (select c a b) := by
  intro i
  show ∃ r : ℝ, (if c i = 1 then a i else b i) = (r : EReal)
  split_ifs
  · exact ha i
  · exact hb i

/-- A product of two real vectors is real. -/
theorem mulf_real {s : Shape} (a b : FVec Ideal s .f32) (ha : IsReal a) (hb : IsReal b) :
    IsReal (mulf a b) := by
  intro i
  obtain ⟨p, hp⟩ := ha i
  obtain ⟨q, hq⟩ := hb i
  refine ⟨p * q, ?_⟩
  show a i * b i = ((p * q : ℝ) : EReal)
  rw [hp, hq, EReal.coe_mul]

/-- The host's power of two real vectors is real: on reals it is `Real.rpow`. -/
theorem powf_real {s : Shape} (a b : FVec Ideal s .f32) (ha : IsReal a) (hb : IsReal b) :
    IsReal (Host.powf a b) := by
  intro i
  obtain ⟨p, hp⟩ := ha i
  obtain ⟨q, hq⟩ := hb i
  refine ⟨Real.rpow p q, ?_⟩
  show Ideal.pow (a i) (b i) = ((Real.rpow p q : ℝ) : EReal)
  rw [hp, hq, Ideal.pow_coe_coe]

/-! ### Closure under the indexing operations -/

/-- A gather reads entries of its table: real if the table is, whatever the indices. -/
theorem gather_real {s si t : Shape} {w : Nat} (d : GatherDims s si t) (x : s.Idx → EReal) (idx : IVec si w)
    (hx : IsReal x) : IsReal (Host.gather d x idx) :=
  fun j => hx (d.operandIdx j idx)

/-- A finite sum of reals, taken in the extended reals, is a real. -/
theorem finset_sum_real {ι : Type} (S : Finset ι) (f : ι → EReal) (hf : IsReal f) :
    ∃ r : ℝ, ∑ j ∈ S, f j = (r : EReal) := by
  classical
  induction S using Finset.induction_on with
  | empty => exact ⟨0, by simp⟩
  | insert a S ha ih =>
    obtain ⟨r, hr⟩ := ih
    obtain ⟨q, hq⟩ := hf a
    exact ⟨q + r, by rw [Finset.sum_insert ha, hr, hq, EReal.coe_add]⟩

/-- An accumulating scatter adds to each operand entry a finite sum of update entries: real if both are. -/
theorem scatterAdd_real {s si u : Shape} {w : Nat} (d : ScatterDims s si u) (x : FVec Ideal s .f32)
    (idx : IVec si w) (upd : FVec Ideal u .f32) (hx : IsReal x) (hu : IsReal upd) :
    IsReal (Host.scatterAdd d x idx upd) := by
  intro i
  obtain ⟨p, hp⟩ := hx i
  obtain ⟨q, hq⟩ := finset_sum_real (Finset.univ.filter (fun j => d.resultIdx? j idx = some i)) upd hu
  refine ⟨p + q, ?_⟩
  show x i + ∑ j ∈ Finset.univ.filter (fun j => d.resultIdx? j idx = some i), upd j = ((p + q : ℝ) : EReal)
  rw [hp, hq, EReal.coe_add]

/-- Every entry of a concatenation is an entry of one of the pieces: real if every piece is. -/
theorem concatenate_real {t : Shape} (a : Fin t.rank) (xs : List ((s : Shape) × (s.Idx → EReal)))
    (h : Shape.Concatenates (xs.map (·.1)) t a) (hx : ∀ p ∈ xs, IsReal p.2) :
    IsReal (concatenate t a xs h) := by
  intro j
  unfold concatenate
  exact hx _ (List.getElem_mem _) _

/-- A vector all of whose entries are one real scalar is real. -/
theorem const_vec_real {ι : Type} (v : ι → EReal) (c : EReal) (hc : ∃ r : ℝ, c = (r : EReal)) (hv : ∀ i, v i = c) :
    IsReal v := by
  intro i
  rw [hv i]
  exact hc

/-! ### The stages of the program -/

/-- The zero vector the clamped weights are compared against plays no part; the replacement value `1e-6`. -/
theorem call0_v1_real : IsReal (val_main_call0_v1 (F := Ideal)) :=
  const_vec_real _ _ const_eps_real (fun i => by
    rw [val_main_call0_v1_apply, val_main_call0_v0_apply, val_main_cst_0_apply])

/-- `w = where(edge_weights ≤ 0, 1e-6, edge_weights)`. -/
theorem v3_real (x2 : (⟨S4096, .f32⟩ : BufTy).Contents (Elt Ideal)) (h2 : IsReal x2) :
    IsReal (val_main_v3 (F := Ideal) x2) :=
  select_real _ _ _ call0_v1_real h2

/-- The vector of ones for the self loops. -/
theorem v11_real : IsReal (val_main_v11 (F := Ideal)) :=
  const_vec_real _ _ const_one_real (fun i => by rw [val_main_v11_apply, val_main_cst_1_apply])

/-- `w_full = concat(w, ones)`. -/
theorem v12_real (x2 : (⟨S4096, .f32⟩ : BufTy).Contents (Elt Ideal)) (h2 : IsReal x2) :
    IsReal (val_main_v12 (F := Ideal) x2) := by
  unfold val_main_v12
  refine concatenate_real _ _ _ ?_
  intro p hp
  simp only [List.mem_cons, List.not_mem_nil, or_false] at hp
  rcases hp with rfl | rfl
  · exact v3_real x2 h2
  · exact v11_real

/-- The zero vector the degree accumulates into. -/
theorem v13_real : IsReal (val_main_v13 (F := Ideal)) :=
  const_vec_real _ _ const_zero_real (fun i => by rw [val_main_v13_apply, val_main_cst_2_apply])

/-- `deg = zeros.at[dst].add(w_full)`. -/
theorem v20_real (x1 : (⟨S2x4096, .i32⟩ : BufTy).Contents (Elt Ideal))
    (x2 : (⟨S4096, .f32⟩ : BufTy).Contents (Elt Ideal)) (h2 : IsReal x2) :
    IsReal (val_main_v20 (F := Ideal) x1 x2) :=
  scatterAdd_real _ _ _ _ v13_real (v12_real x2 h2)

/-- The exponent vector `-0.5`. -/
theorem v23_real : IsReal (val_main_v23 (F := Ideal)) :=
  const_vec_real _ _ const_neg_half_real (fun i => by rw [val_main_v23_apply, val_main_cst_5_apply])

/-- `deg ** -0.5`. -/
theorem v24_real (x1 : (⟨S2x4096, .i32⟩ : BufTy).Contents (Elt Ideal))
    (x2 : (⟨S4096, .f32⟩ : BufTy).Contents (Elt Ideal)) (h2 : IsReal x2) :
    IsReal (val_main_v24 (F := Ideal) x1 x2) :=
  powf_real _ _ (v20_real x1 x2 h2) v23_real

/-- The zero vector `dinv` falls back to. -/
theorem v25_real : IsReal (val_main_v25 (F := Ideal)) :=
  const_vec_real _ _ const_zero_real (fun i => by rw [val_main_v25_apply, val_main_cst_6_apply])

/-- `dinv = where(deg > 0, deg ** -0.5, 0)`. -/
theorem v26_real (x1 : (⟨S2x4096, .i32⟩ : BufTy).Contents (Elt Ideal))
    (x2 : (⟨S4096, .f32⟩ : BufTy).Contents (Elt Ideal)) (h2 : IsReal x2) :
    IsReal (val_main_v26 (F := Ideal) x1 x2) :=
  select_real _ _ _ (v24_real x1 x2 h2) v25_real

/-- `dinv[src] * w_full`. -/
theorem v34_real (x1 : (⟨S2x4096, .i32⟩ : BufTy).Contents (Elt Ideal))
    (x2 : (⟨S4096, .f32⟩ : BufTy).Contents (Elt Ideal)) (h2 : IsReal x2) :
    IsReal (val_main_v34 (F := Ideal) x1 x2) :=
  mulf_real _ _ (gather_real _ _ _ (v26_real x1 x2 h2)) (v12_real x2 h2)

/-- **The edge norms are real**: `norm = dinv[src] * w_full * dinv[dst]` is finite whenever the edge weights are. -/
theorem norm_real (x1 : (⟨S2x4096, .i32⟩ : BufTy).Contents (Elt Ideal)) (x2 : (⟨S4096, .f32⟩ : BufTy).Contents (Elt Ideal))
    (h2 : ∀ i, ∃ r : ℝ, x2 i = (r : EReal)) :
    ∀ i, ∃ r : ℝ, val_main_v42 (F := Ideal) x1 x2 i = (r : EReal) :=
  mulf_real _ _ (v34_real x1 x2 h2) (gather_real _ _ _ (v26_real x1 x2 h2))

end Cert.NormReal
-- ==== Proof.IndexRange.lean ====
import proofs.«417759_j36283883716825_3_alg».proof.Proof.Gen.ReferenceIdeal.Read
import Idealize.ShloMosaic.Lib.Pipeline.Value
import Idealize.ShloMosaic.Lib.StableHlo.Predicate

/-! # The wrapped index vectors stay in range

The reference joins each row of `edge_index` with `0, 1, …, 63` (the self loops), and before every
use of such an index vector wraps negative entries by adding 64. When every entry of `edge_index`
lies in `[0, 64)`, so does every entry of the joined vector; no entry is negative, the wrap leaves
it alone, and the wrapped vector's entries lie in `[0, 64)` too. -/

noncomputable section

namespace Cert.IndexRange

open Idealize.ShloMosaic Cert.ReferenceIdeal Cert.ReferenceIdeal.Read

/-- Wrapping a word whose signed value is not negative gives the word back: the signed compare
    with zero is false, so the select takes its second branch. -/
theorem wrap_of_nonneg (a : BitVec 32) (h : 0 ≤ a.toInt) :
    Scalar.select (IntOp.cmpi .slt a 0#32) (IntOp.addi a 64#32) a = a := by
  have hs : a.slt 0#32 = false := by
    simp only [BitVec.slt, BitVec.toInt_zero, decide_eq_false_iff_not, not_lt]
    exact h
  unfold Scalar.select IntOp.cmpi
  simp only [hs]
  rfl

/-- The first 4096 entries of a row joined with `0, …, 63` are the row's; the last 64 are
    `0, …, 63`. Either way the entry's signed value lies in `[0, 64)`. -/
theorem v9_range (x1 : (⟨S2x4096, .i32⟩ : BufTy).Contents (Elt Ideal))
    (h1 : ∀ i, 0 ≤ (x1 i).toInt ∧ (x1 i).toInt < 64) (j : S4160.Idx) :
    0 ≤ (val_main_v9 (F := Ideal) x1 j).toInt ∧ (val_main_v9 (F := Ideal) x1 j).toInt < 64 := by
  have hj : (j 0).val < 4160 := (j 0).isLt
  unfold val_main_v9
  by_cases hc : (j 0).val < 4096
  · -- the entry is the row's, at the same coordinate
    let i : S4096.Idx := fun a => match a with
      | ⟨0, _⟩ => ⟨(j 0).val, hc⟩
    rw [concatenate_pair_apply_left (0 : Fin S4160.rank) (val_main_v5 (F := Ideal) x1) (val_main_v8 (F := Ideal))
      Facts₀.concatenates_S4096_S64_S4160_d0 j rfl i (fun b => match b with | ⟨0, _⟩ => rfl)]
    rw [val_main_v5_apply, val_main_v4_apply]
    exact h1 _
  · -- the entry is `k` for the coordinate `4096 + k`
    have hk : (j 0).val - 4096 < 64 := by omega
    let i : S64.Idx := fun a => match a with
      | ⟨0, _⟩ => ⟨(j 0).val - 4096, hk⟩
    rw [concatenate_pair_apply_right (0 : Fin S4160.rank) (val_main_v5 (F := Ideal) x1) (val_main_v8 (F := Ideal))
      Facts₀.concatenates_S4096_S64_S4160_d0 j rfl rfl i
      (fun b hb => absurd (Subsingleton.elim (α := Fin 1) _ _) hb)
      (by show (j 0).val - 4096 + 4096 = (j 0).val; omega)]
    rw [val_main_v8_apply]
    show 0 ≤ (BitVec.ofNat 32 ((j 0).val - 4096)).toInt ∧ (BitVec.ofNat 32 ((j 0).val - 4096)).toInt < 64
    rw [StableHlo.Predicate.toInt_ofNat_small _ (by omega)]
    omega

/-- The same for the second row of `edge_index` joined with `0, …, 63`. -/
theorem v10_range (x1 : (⟨S2x4096, .i32⟩ : BufTy).Contents (Elt Ideal))
    (h1 : ∀ i, 0 ≤ (x1 i).toInt ∧ (x1 i).toInt < 64) (j : S4160.Idx) :
    0 ≤ (val_main_v10 (F := Ideal) x1 j).toInt ∧ (val_main_v10 (F := Ideal) x1 j).toInt < 64 := by
  have hj : (j 0).val < 4160 := (j 0).isLt
  unfold val_main_v10
  by_cases hc : (j 0).val < 4096
  · -- the entry is the row's, at the same coordinate
    let i : S4096.Idx := fun a => match a with
      | ⟨0, _⟩ => ⟨(j 0).val, hc⟩
    rw [concatenate_pair_apply_left (0 : Fin S4160.rank) (val_main_v7 (F := Ideal) x1) (val_main_v8 (F := Ideal))
      Facts₀.concatenates_S4096_S64_S4160_d0 j rfl i (fun b => match b with | ⟨0, _⟩ => rfl)]
    rw [val_main_v7_apply, val_main_v6_apply]
    exact h1 _
  · -- the entry is `k` for the coordinate `4096 + k`
    have hk : (j 0).val - 4096 < 64 := by omega
    let i : S64.Idx := fun a => match a with
      | ⟨0, _⟩ => ⟨(j 0).val - 4096, hk⟩
    rw [concatenate_pair_apply_right (0 : Fin S4160.rank) (val_main_v7 (F := Ideal) x1) (val_main_v8 (F := Ideal))
      Facts₀.concatenates_S4096_S64_S4160_d0 j rfl rfl i
      (fun b hb => absurd (Subsingleton.elim (α := Fin 1) _ _) hb)
      (by show (j 0).val - 4096 + 4096 = (j 0).val; omega)]
    rw [val_main_v8_apply]
    show 0 ≤ (BitVec.ofNat 32 ((j 0).val - 4096)).toInt ∧ (BitVec.ofNat 32 ((j 0).val - 4096)).toInt < 64
    rw [StableHlo.Predicate.toInt_ofNat_small _ (by omega)]
    omega

/-- The wrapped source indices: no entry of the joined vector is negative, so the wrap is the
    identity and the range carries over. -/
theorem src_range (x1 : (⟨S2x4096, .i32⟩ : BufTy).Contents (Elt Ideal))
    (h1 : ∀ i, 0 ≤ (x1 i).toInt ∧ (x1 i).toInt < 64) :
    ∀ j, 0 ≤ (val_main_v31 (F := Ideal) x1 j).toInt ∧ (val_main_v31 (F := Ideal) x1 j).toInt < 64 := by
  intro j
  have h9 := v9_range x1 h1 j
  have e : val_main_v31 (F := Ideal) x1 j = val_main_v9 (F := Ideal) x1 j := by
    rw [val_main_v31_apply, val_main_v28_apply, val_main_v30_apply, val_main_v27_apply, val_main_c_7_apply,
      val_main_v29_apply, val_main_c_8_apply]
    exact wrap_of_nonneg _ h9.1
  rw [e]
  exact h9

/-- The wrapped destination indices, likewise. -/
theorem dst_range (x1 : (⟨S2x4096, .i32⟩ : BufTy).Contents (Elt Ideal))
    (h1 : ∀ i, 0 ≤ (x1 i).toInt ∧ (x1 i).toInt < 64) :
    ∀ j, 0 ≤ (val_main_v18 (F := Ideal) x1 j).toInt ∧ (val_main_v18 (F := Ideal) x1 j).toInt < 64 := by
  intro j
  have h10 := v10_range x1 h1 j
  have e : val_main_v18 (F := Ideal) x1 j = val_main_v10 (F := Ideal) x1 j := by
    rw [val_main_v18_apply, val_main_v15_apply, val_main_v17_apply, val_main_v14_apply, val_main_c_apply,
      val_main_v16_apply, val_main_c_3_apply]
    exact wrap_of_nonneg _ h10.1
  rw [e]
  exact h10

end Cert.IndexRange
-- ==== Proof.PreFacts.lean ====
/-
  THE PRECONDITION DECODED. The printed precondition is a conjunction (a chain of one-bit `and`s) of six `jnp.all`s:
  four say that every element of a float array has absolute value below +∞, two say that every word of the int32 index
  array is at least 0 and below 64, compared signed. The precondition's result being 1 gives: every float element is a
  real number (an extended real whose absolute value is below +∞ is neither infinity), and every index word, read signed,
  lies in [0, 64).
-/
import proofs.«417759_j36283883716825_3_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic

/-- The rank-0 shape has one index. -/
instance : Subsingleton Cert.Pre_finite_inputs.S_.Idx := ⟨fun a b => funext fun d => d.elim0⟩

/-- The bit pattern 0x7F800000 is +∞. -/
theorem inf_bits : Ideal.ofBits .f32 0x7F800000#32 = (⊤ : EReal) := by simp [Ideal.ofBits, Ideal.ieee]

/-- An extended real whose absolute value `max x (-x)` is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of a float mask `|x| < +∞` that is set: the element is a real number. -/
theorem real_of_bit (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_bits] at h'
  unfold Ideal.cmp at h'
  rw [StableHlo.Predicate.ofBool_eq_one_iff] at h'
  exact real_of_abs_lt_top x (of_decide_eq_true h')

/-- `jnp.all(|x| < +∞)` over a float array of any shape, the result 1: every element is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x) (broadcastInDim s ![] hb (constant Cert.Pre_finite_inputs.S_ .f32 0x7F800000#32)))
        init hr hu j = 1#1) (i : s.Idx) : ∃ r : ℝ, x i = (r : EReal) :=
  real_of_bit (x i) (Host.reduce_andi_all _ init hr hu j e i)

/-- `jnp.all(w >= 0)` over a word array, the result 1: every word read signed is at least 0. -/
theorem nonneg_of_all {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpi .sge x (broadcastInDim s ![] hb (constantI Cert.Pre_finite_inputs.S_ 32 0#32)))
        init hr hu j = 1#1) (i : s.Idx) : 0 ≤ (x i).toInt := by
  have h : IntOp.cmpi .sge (x i) 0#32 = 1#1 := Host.reduce_andi_all _ init hr hu j e i
  rw [IntOp.cmpi_sge] at h
  exact h

/-- `jnp.all(w < 64)` over a word array, the result 1: every word read signed is below 64. -/
theorem lt_of_all {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpi .slt x (broadcastInDim s ![] hb (constantI Cert.Pre_finite_inputs.S_ 32 64#32)))
        init hr hu j = 1#1) (i : s.Idx) : (x i).toInt < 64 := by
  have h : IntOp.cmpi .slt (x i) 64#32 = 1#1 := Host.reduce_andi_all _ init hr hu j e i
  rw [IntOp.cmpi_slt] at h
  exact h

/-- THE PRECONDITION DECODED: the printed function of the five inputs is 1 — then the four float arrays hold real numbers
    only, and every word of the index array, read signed, lies in [0, 64). -/
theorem of_pre (x0 : FVec Ideal Cert.Pre_finite_inputs.S32x8x64x250 .f32) (x1 : IVec Cert.Pre_finite_inputs.S2x4096 32)
    (x2 : FVec Ideal Cert.Pre_finite_inputs.S4096 .f32) (x3 : FVec Ideal Cert.Pre_finite_inputs.S128x2000 .f32)
    (x4 : FVec Ideal Cert.Pre_finite_inputs.S128 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, 0 ≤ (x1 i).toInt ∧ (x1 i).toInt < 64) := by
  have e := congrFun h ValueIdx.ix0
  dsimp only [Cert.Pre_finite_inputs.fn, Cert.Pre_finite_inputs.fn_part1, andi] at e
  simp only [IntOp.andi_eq_one] at e
  obtain ⟨⟨⟨⟨⟨e0, e2⟩, e3⟩, e4⟩, e1a⟩, e1b⟩ := e
  exact ⟨real_of_all x0 _ _ _ _ _ e0, real_of_all x2 _ _ _ _ _ e2, real_of_all x3 _ _ _ _ _ e3,
    real_of_all x4 _ _ _ _ _ e4, fun i => ⟨nonneg_of_all x1 _ _ _ _ _ e1a i, lt_of_all x1 _ _ _ _ _ e1b i⟩⟩

end Cert.PreFacts

end
-- ==== Proof.Bridge.lean ====
/-
  The kernel's output array and the reference's result are one function of the arguments.

  At (p, n, h) the kernel's array holds  (sum over k of (A·A)(n, k) * sum over f of x (p, k, f) * W (h, f)) + b (h),
  where A (n, j) adds the norms of the edges from j to n; the reference's holds the linear layer applied to x after two
  rounds of "gather along each edge's source, weight by the edge's norm, add at the edge's destination". With every
  index in range (so that the reference's clamped gathers and the scatters agree on which node an edge touches) and
  every number finite (so that products distribute over the sums), both are
      sum over edges e into n, edges e' into the source of e, of  norm e * norm e' * (W's row h applied to x at the source of e'),
  plus b (h): the law `two_hop_linear`.
-/
import proofs.«417759_j36283883716825_3_alg».proof.Proof.KerValue
import proofs.«417759_j36283883716825_3_alg».proof.Proof.KerHost
import proofs.«417759_j36283883716825_3_alg».proof.Proof.RefValue
import proofs.«417759_j36283883716825_3_alg».proof.Proof.LibTwoHop
import proofs.«417759_j36283883716825_3_alg».proof.Proof.NormReal
import proofs.«417759_j36283883716825_3_alg».proof.Proof.IndexRange
import proofs.«417759_j36283883716825_3_alg».proof.Proof.PreFacts

set_option maxRecDepth 16384

noncomputable section

open scoped BigOperators

namespace Cert.Bridge

open Idealize.ShloMosaic Idealize.ShloMosaic.ValueIdx Idealize.ShloMosaic.TcCoe Idealize.SL.Sem
open Cert.KernelIdeal Cert.KernelIdeal.Gen Cert.KerHost

variable (m : (ℓ : Loc nD τ sig) → Buf (Elt Ideal) ℓ)

/-- Under the precondition, the function the kernel's output array ends at is the reference's result of the same arguments. -/
theorem result_eq (c : Dev nD)
    (hpre : Cert.Pre_finite_inputs.fn (F := Ideal) (a0 m c) (a1 m c) (a2 m c) (a3 m c) (a4 m c) = fun _ => 1#1) :
    Cert.KerValue.G (Cert.KerValue.xarr m c) (Cert.KerValue.a2arr m c) (Cert.KerValue.wtarr m c) (Cert.KerValue.barr m c)
      = Cert.ReferenceIdeal.Read.val_main_v82 (F := Ideal) (a0 m c) (a1 m c) (a2 m c) (a3 m c) (a4 m c) := by
  obtain ⟨h0, h2, h3, h4, h1⟩ := Cert.PreFacts.of_pre _ _ _ _ _ hpre
  have hs := Cert.IndexRange.src_range (a1 m c) h1
  have hd := Cert.IndexRange.dst_range (a1 m c) h1
  have hν := Cert.NormReal.norm_real (a1 m c) (a2 m c) h2
  funext i
  obtain ⟨p, n, h, rfl⟩ : ∃ (p : Fin 32) (n : Fin 64) (h : Fin 128), i = ix3 p n h := ⟨i 0, i 1, i 2, eq_ix3 i⟩
  rw [Cert.RefValue.result_apply (a0 m c) (a1 m c) (a2 m c) (a3 m c) (a4 m c) hs hd p n h]
  show (∑ k : Fin 64, Cert.KerValue.a2arr m c (ix2 n k)
          * ∑ f : Fin 2000, Cert.KerValue.xarr m c (ix3 p k f) * Cert.KerValue.wtarr m c (ix2 f h))
        + Cert.KerValue.barr m c (ix1 h) = _
  have hb : Cert.KerValue.barr m c = a4 m c := V_main_arg4 m c
  have hx : Cert.KerValue.xarr m c = Cert.ReferenceIdeal.Read.val_main_v0 (F := Ideal) (a0 m c) := V_x m c
  rw [hb]
  refine congrArg (· + a4 m c (ix1 h)) ?_
  have hk : ∀ k : Fin 64, Cert.KerValue.a2arr m c (ix2 n k)
        * ∑ f : Fin 2000, Cert.KerValue.xarr m c (ix3 p k f) * Cert.KerValue.wtarr m c (ix2 f h)
      = (∑ j : Fin 64,
          (∑ e : Fin 4160, if Cert.Edges.dst (a1 m c) e = n ∧ Cert.Edges.src (a1 m c) e = j
              then Cert.ReferenceIdeal.Read.val_main_v42 (F := Ideal) (a1 m c) (a2 m c) (ix1 e) else 0)
          * (∑ e : Fin 4160, if Cert.Edges.dst (a1 m c) e = j ∧ Cert.Edges.src (a1 m c) e = k
              then Cert.ReferenceIdeal.Read.val_main_v42 (F := Ideal) (a1 m c) (a2 m c) (ix1 e) else 0))
        * ∑ f : Fin 2000, Cert.ReferenceIdeal.Read.val_main_v0 (F := Ideal) (a0 m c) (ix3 p k f) * a3 m c (ix2 h f) := by
    intro k
    have e1 : Cert.KerValue.a2arr m c (ix2 n k) = _ := V_a2 m c hs hd n k
    rw [e1, hx]
    refine congrArg (_ * ·) (Finset.sum_congr rfl fun f _ => ?_)
    have e2 : Cert.KerValue.wtarr m c (ix2 f h) = a3 m c (ix2 h f) := V_wt m c f h
    rw [e2]
  rw [Finset.sum_congr rfl fun k _ => hk k]
  exact Cert.LibTwoHop.two_hop_linear (E := Fin 4160) (V := Fin 64) (Φ := Fin 2000)
    (Cert.Edges.src (a1 m c)) (Cert.Edges.dst (a1 m c))
    (fun e => Cert.ReferenceIdeal.Read.val_main_v42 (F := Ideal) (a1 m c) (a2 m c) (ix1 e))
    (fun k f => Cert.ReferenceIdeal.Read.val_main_v0 (F := Ideal) (a0 m c) (ix3 p k f))
    (fun f => a3 m c (ix2 h f)) n
    (fun e => hν (ix1 e))
    (fun k f => by rw [Cert.ReferenceIdeal.Read.val_main_v0_apply]; exact h0 _)
    (fun f => h3 _)

end Cert.Bridge

end
-- ==== Proof.lean ====
/-
  The certificate of a two-hop graph convolution followed by a linear layer.

  The kernel takes x [32, 8, 64, 250] (read as 32 batches of 64 nodes with 2000 features), an edge list of 4096
  (source, destination) pairs over the 64 nodes, edge weights, a weight matrix W [128, 2000] and a bias. Both programs
  clamp non-positive edge weights, add one self loop per node, and give each edge the symmetric norm
  dinv (source) * weight * dinv (destination), dinv the degree to the power -1/2. The reference then propagates x
  twice along the edges (gather at the source, weight, add at the destination) and applies the linear layer; the
  kernel builds the dense 64 by 64 adjacency matrix A of the normed edges, squares it, applies the linear layer to x
  first and multiplies by A·A afterwards, 4 batches per grid step.

  The two results are equal because propagation acts on the node axis and the linear layer on the feature axis: both
  are the double sum over pairs of consecutive edges of the product of the two norms with the linear layer applied at
  the first edge's source. That needs products to distribute over sums, so every number must be finite — the
  precondition's finiteness of the float inputs, from which the degrees, their powers and the norms are finite too — and
  it needs the two programs to agree on which node an index names: a gather clamps an index that is out of range where
  a scatter drops it, so the precondition also asks every entry of the edge list to be a node's number, 0 … 63.

  The frames of the two kernel programs are the generated ones; the reference's is its generated run with the result
  dropped; the ideal pass rewrote nothing, so the idealization claim is trivial; the equality of the results is
  `Cert.Bridge.result_eq` set between the kernel's run (its output array read block by block, `Cert.KerValue.final`) and
  the reference's generated run.
-/
import proofs.«417759_j36283883716825_3_alg».proof.Defs
import proofs.«417759_j36283883716825_3_alg».proof.Proof.Gen.Kernel
import proofs.«417759_j36283883716825_3_alg».proof.Proof.Gen.Kernel.Skeleton
import proofs.«417759_j36283883716825_3_alg».proof.Proof.Gen.Kernel.Launch
import proofs.«417759_j36283883716825_3_alg».proof.Proof.Gen.Kernel.Points
import proofs.«417759_j36283883716825_3_alg».proof.Proof.Gen.Kernel.Frame
import proofs.«417759_j36283883716825_3_alg».proof.Proof.Gen.KernelIdeal
import proofs.«417759_j36283883716825_3_alg».proof.Proof.Gen.KernelIdeal.Skeleton
import proofs.«417759_j36283883716825_3_alg».proof.Proof.Gen.KernelIdeal.Launch
import proofs.«417759_j36283883716825_3_alg».proof.Proof.Gen.KernelIdeal.Points
import proofs.«417759_j36283883716825_3_alg».proof.Proof.Gen.KernelIdeal.Frame
import proofs.«417759_j36283883716825_3_alg».proof.Proof.Gen.ReferenceIdeal
import proofs.«417759_j36283883716825_3_alg».proof.Proof.Gen.Pre_finite_inputs
import proofs.«417759_j36283883716825_3_alg».proof.Proof.Gen.KernelIdeal.Value
import proofs.«417759_j36283883716825_3_alg».proof.Proof.Gen.ReferenceIdeal.Run
import proofs.«417759_j36283883716825_3_alg».proof.Proof.Gen.ReferenceIdeal.Read
import proofs.«417759_j36283883716825_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's output array ends at `G` of the arrays its region finds, the reference's result at
    its composed term of the same arguments, and under the precondition these are one function. -/
theorem algebraic : Cert.algebraic_KernelIdeal_ReferenceIdeal := by
  intro m ρ m' ρ' hpre hagree
  refine ⟨fun c => Cert.KerValue.G (Cert.KerValue.xarr m c) (Cert.KerValue.a2arr m c) (Cert.KerValue.wtarr m c) (Cert.KerValue.barr m c), ?_, ?_⟩
  · exact (θ_run Cert.KernelIdeal.defs _ _).mono (fun r h c => ⟨(h c).1.trans (Cert.KerValue.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2.1, (hagree c).2.2.2.2]
    exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
